-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048 : Shape := ⟨2, ![8, 2048]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : IVec S8x2048 32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Kernel.lean ====
abbrev S8x2048x512 : Shape := ⟨3, ![8, 2048, 512]⟩
abbrev S8x2048 : Shape := ⟨2, ![8, 2048]⟩
abbrev S8x2048x1 : Shape := ⟨3, ![8, 2048, 1]⟩
abbrev S8x256x512 : Shape := ⟨3, ![8, 256, 512]⟩
abbrev S8x256 : Shape := ⟨2, ![8, 256]⟩
abbrev S8x256x1 : Shape := ⟨3, ![8, 256, 1]⟩
abbrev S8x1x256 : Shape := ⟨3, ![8, 1, 256]⟩
abbrev S8x256x256 : Shape := ⟨3, ![8, 256, 256]⟩
abbrev S_ : Shape := ⟨0, ![]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x512, .f32⟩
  | .hbm, ⟨1, _⟩ => ⟨S8x2048, .i32⟩
  | .hbm, ⟨2, _⟩ => ⟨S8x2048x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S8x256, .i32⟩
  | .local _ .vmem, ⟨5, _⟩ => ⟨S8x256, .i32⟩
  | .local _ .vmem, ⟨6, _⟩ => ⟨S8x256, .i32⟩
  | .local _ .vmem, ⟨7, _⟩ => ⟨S8x256, .i32⟩
  | .local _ .vmem, ⟨8, _⟩ => ⟨S8x256x1, .f32⟩
  | .local _ .vmem, ⟨9, _⟩ => ⟨S8x256x1, .f32⟩
  | .local _ .vmem, ⟨10, _⟩ => ⟨S8x256x1, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x256x512_S8x256x512_0_0_0 : ∀ a, (![0, 0, 0] : Fin 3 → Nat) a + S8x256x512.size a ≤ S8x256x512.size a
  h_S8x256x512 : 0 < S8x256x512.numel
  reduces_S8x256x512_S8x256 : S8x256x512.Reduces [2] S8x256
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  inb_S8x256_S8x256_0_0 : ∀ a, (![0, 0] : Fin 2 → Nat) a + S8x256.size a ≤ S8x256.size a
  h_S8x256 : 0 < S8x256.numel
  natLt_1_32 : 1 < 32
  reduces_S8x256x256_S8x256 : S8x256x256.Reduces [2] S8x256
  reducesTo_S8x2048x1_S_d0_1_2 : S8x2048x1.ReducesTo [0, 1, 2] S_
  h_S_ : 0 < S_.numel
  dot_S8x256x512_S8x256x512_S8x256x256_2_2_1_1_0_0_wf : DotDims.WF S8x256x512 S8x256x512 S8x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S8x2048x512.size a
  hwx0_0 : ∀ i : grid0.Coords, EltTy.bits .f32 = 32 ∨ (Rect.block (s := S8x2048x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S8x2048x512.size a
  hwx0_1 : ∀ i : grid0.Coords, EltTy.bits .f32 = 32 ∨ (Rect.block (s := S8x2048x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x2048.size a
  hwx0_2 : ∀ i : grid0.Coords, EltTy.bits .i32 = 32 ∨ (Rect.block (s := S8x2048) S8x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x2048.size a
  hwx0_3 : ∀ i : grid0.Coords, EltTy.bits .i32 = 32 ∨ (Rect.block (s := S8x2048) S8x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x1.size a ≤ S8x2048x1.size a
  hwx0_4 : ∀ i : grid0.Coords, EltTy.bits .f32 = 32 ∨ (Rect.block (s := S8x2048x1) S8x256x1.size (cc0_transform_4 i) (hinb0_4 i)).WholeWords (EltTy.packing .f32)

variable [Facts₀]

def dot_S8x256x512_S8x256x512_S8x256x256_2_2_1_1_0_0 : DotDims S8x256x512 S8x256x512 S8x256x256 where
  lhsContracting := [2]
  rhsContracting := [2]
  lhsNonContracting := [1]
  rhsNonContracting := [1]
  lhsBatch := [0]
  rhsBatch := [0]
  wf := dot_S8x256x512_S8x256x512_S8x256x256_2_2_1_1_0_0_wf

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048, .i32⟩
  | .hbm, ⟨2, _⟩ => ⟨S8x2048x1, .i32⟩
  | .hbm, ⟨3, _⟩ => ⟨S8x1x2048, .i32⟩
  | .hbm, ⟨4, _⟩ => ⟨S8x2048x2048, .i32⟩
  | .hbm, ⟨5, _⟩ => ⟨S8x2048x2048, .i32⟩
  | .hbm, ⟨6, _⟩ => ⟨S8x2048x2048, .i1⟩
  | .hbm, ⟨7, _⟩ => ⟨S8x2048x2048, .f32⟩
  | .hbm, ⟨8, _⟩ => ⟨S8x2048x512, .f32⟩
  | .hbm, ⟨9, _⟩ => ⟨S_, .f32⟩
  | .hbm, ⟨10, _⟩ => ⟨S8x2048, .f32⟩
  | .hbm, ⟨11, _⟩ => ⟨S8x2048x2048, .f32⟩
  | .hbm, ⟨12, _⟩ => ⟨S8x2048x1, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .i1⟩
  | .hbm, ⟨27, _⟩ => ⟨S_, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  reducesTo_S8x2048x512_S8x2048_d2 : S8x2048x512.ReducesTo [2] S8x2048
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  dot_S8x2048x512_S8x2048x512_S8x2048x2048_2_2_1_1_0_0_wf : DotDims.WF S8x2048x512 S8x2048x512 S8x2048x2048 [2] [2] [1] [1] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf

class Facts : Prop extends Facts₀ where

variable [Facts]
-- ==== Proof.K.Kit.lean ====
/-
  The region of the pairwise-distance loss kernel seen from one TensorCore: the arrays as the region finds them (no
  host operation precedes it), each window's block at a grid point, the staging and scratch memrefs the body is called
  with, the body's one branch (the reset of the row accumulator at the first tile of a row of tiles, points = 0 mod 8)
  and @main around the region (the region, then the host's sum over all rows and the division by the element count).
  Windows 0 and 1 read the prediction array (the row tile and the column tile), windows 2 and 3 the label array,
  window 4 is the per-row accumulator written back.
-/
import proofs.«143206_j6339371729129_1_alg».proof.Proof.Gen.Kernel.Launch
import proofs.«143206_j6339371729129_1_alg».proof.Proof.Gen.Kernel.Skeleton
import proofs.«143206_j6339371729129_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents (nothing runs before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the four host lines (the sum over the rows and the division). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved), for any proof data over the region-entry arrays whose body leaves the input blocks in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The accumulator is reset where the column-tile coordinate is zero. -/
abbrev cond0_0 (i : grid0.Coords) : Prop := (Scalar.cmpi .ne (Scalar.extui (Scalar.cmpi .eq (BitVec.ofNat 32 (i 1).val) 0#32)) 0#32) = 1#1
/-- That is at the points = 0 (mod 8): decided over the 64 points. -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The memrefs the body is called with -/

abbrev ms0_0 (t : Fin cfg0.N) : Memref sig .tc .vmem S8x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256x1 .f32 := win0_4.stage (cfg0.slots t 4)
abbrev hs0_4 (t : Fin cfg0.N) : (ms0_4 t).IsWhole := hstage0_4 ((cfg0.slots t 4).cast nbuf0_4)
/-- The row accumulator: a whole scoped buffer of the kernel's own, carried from point to point. -/
abbrev scM0_0 : Memref sig .tc .vmem S8x256x1 .f32 := Memref.whole cc0_scratch0
abbrev VS0_0 : View sig .tc .vmem S8x256x1 .f32 := scM0_0.view
/-- One staging buffer of the output window, through which its contents are stated. -/
abbrev VO0_4 : View sig .tc .vmem S8x256x1 .f32 := (Memref.whole cc0_stg4_0 : Memref sig .tc .vmem S8x256x1 .f32).view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## One point's arithmetic -/

/-- What one grid point adds to the row accumulator `acc`: from the row tile `q`, the column tile `k` and their label
    tiles, the per-row sum over the column tile of the pairwise loss, added to `acc`. -/
def step (q k : Vec F S8x256x512 .f32) (sq sk : Vec F S8x256 .i32) (acc : Vec F S8x256x1 .f32) : Vec F S8x256x1 .f32 :=
  k0_pay1 (k0_pay3 q k) (k0_pay4 q k) (k0_pay5 (F := F) sq sk) (Scalar.ofBits .f32 0x40000000#32) acc

end Cert.Kernel.Hand

end
-- ==== Proof.K.Runs.lean ====
/-
  The kernel body run once per case of its one branch, on whole staging memrefs: the row tile, the column tile and the
  two label tiles at given contents, the output's buffer at anything, and the row accumulator at anything (case A: the
  branch resets it, the first column tile of a row of tiles) or at what the point before left (case B). Each run ends
  holding the inputs as they were, and the output's buffer and the accumulator with the body's stores written: the
  lists of stored pieces are found by running the body.
-/
import proofs.«143206_j6339371729129_1_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A (the column-tile coordinate is zero): the accumulator is reset, then this tile's row sums are added. -/
noncomputable def kernelRun0_A (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i)
    (x0 x1 : Vec F S8x256x512 .f32) (x2 x3 : Vec F S8x256 .i32) :
    Σ' (L4 : List (View.Piece (Elt F) S8x256x1 .f32)), { LS0 : List (View.Piece (Elt F) S8x256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 1000000 in
/-- Case B (a later column tile): this tile's row sums are added to what the point before left in the accumulator. -/
noncomputable def kernelRun0_B (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i)
    (x0 x1 : Vec F S8x256x512 .f32) (x2 x3 : Vec F S8x256 .i32) (xs0 : Vec F S8x256x1 .f32) :
    Σ' (L4 : List (View.Piece (Elt F) S8x256x1 .f32)), { LS0 : List (View.Piece (Elt F) S8x256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Data.lean ====
/-
  The proof data of the one pipeline. The row accumulator after point n is a fold of the one-point update `step` over
  the points since the last reset (the points = 0 mod 8 start from the zero block): `accV`. The output window's staging
  buffer is left at the same contents at every point; the four input windows' buffers at their blocks. The prediction
  array is read by windows 0 and 1 and the label array by windows 2 and 3: each pair of windows holds its array at the
  two halves of the full share.
-/
import proofs.«143206_j6339371729129_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, at their literal types -/

abbrev qblk (c : Dev nD) (t : Fin cfg0.N) : Vec F S8x256x512 .f32 := iblk m c 0 t
abbrev kblk (c : Dev nD) (t : Fin cfg0.N) : Vec F S8x256x512 .f32 := iblk m c 1 t
abbrev sqblk (c : Dev nD) (t : Fin cfg0.N) : Vec F S8x256 .i32 := iblk m c 2 t
abbrev skblk (c : Dev nD) (t : Fin cfg0.N) : Vec F S8x256 .i32 := iblk m c 3 t

/-! ## What each case's stores leave -/

theorem cover0_A_4 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) (y : S8x256x1.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S8x256x1.size (by sl_kernel_rfl) y
theorem scover0_A_0 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) (y : S8x256x1.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S8x256x1.size (by sl_kernel_rfl) y
theorem cover0_B_4 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) (y : S8x256x1.Idx) :
    ∃ pc ∈ (kernelRun0_B c i arg2 harg2 arg3 harg3 arg4 harg4 arg5 harg5 arg6 harg6 arg7 harg7 hc0 x0 x1 x2 x3 xs0).1, y ∈ pc.1.set :=
  View.cover_of_tiledL (kernelRun0_B c i arg2 harg2 arg3 harg3 arg4 harg4 arg5 harg5 arg6 harg6 arg7 harg7 hc0 x0 x1 x2 x3 xs0).1 S8x256x1.size (by sl_kernel_rfl) y
theorem scover0_B_0 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) (y : S8x256x1.Idx) :
    ∃ pc ∈ (kernelRun0_B c i arg2 harg2 arg3 harg3 arg4 harg4 arg5 harg5 arg6 harg6 arg7 harg7 hc0 x0 x1 x2 x3 xs0).2.1, y ∈ pc.1.set :=
  View.cover_of_tiledL (kernelRun0_B c i arg2 harg2 arg3 harg3 arg4 harg4 arg5 harg5 arg6 harg6 arg7 harg7 hc0 x0 x1 x2 x3 xs0).2.1 S8x256x1.size (by sl_kernel_rfl) y

/-- What case A leaves in the output's staging buffer: its stored pieces read back. -/
def out0_A_4 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) : Vec F S8x256x1 .f32 :=
  VO0_4.read (Elt F) (VO0_4.writes (Elt F) VO0_4.junk (kernelRun0_A c i arg2 harg2 arg3 harg3 arg4 harg4 arg5 harg5 arg6 harg6 arg7 harg7 hc0 x0 x1 x2 x3).1)
/-- What case A leaves in the accumulator. -/
def sout0_A_0 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) : Vec F S8x256x1 .f32 :=
  VS0_0.read (Elt F) (VS0_0.writes (Elt F) VS0_0.junk (kernelRun0_A c i arg2 harg2 arg3 harg3 arg4 harg4 arg5 harg5 arg6 harg6 arg7 harg7 hc0 x0 x1 x2 x3).2.1)
def out0_B_4 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) : Vec F S8x256x1 .f32 :=
  VO0_4.read (Elt F) (VO0_4.writes (Elt F) VO0_4.junk (kernelRun0_B c i arg2 harg2 arg3 harg3 arg4 harg4 arg5 harg5 arg6 harg6 arg7 harg7 hc0 x0 x1 x2 x3 xs0).1)
def sout0_B_0 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) : Vec F S8x256x1 .f32 :=
  VS0_0.read (Elt F) (VS0_0.writes (Elt F) VS0_0.junk (kernelRun0_B c i arg2 harg2 arg3 harg3 arg4 harg4 arg5 harg5 arg6 harg6 arg7 harg7 hc0 x0 x1 x2 x3 xs0).2.1)

/-! ## The accumulator point by point -/

/-- The row accumulator (and the output's staging buffer) after the body at position `n`. -/
def accV (c : Dev nD) : (n : ℕ) → n < cfg0.N → Vec F S8x256x1 .f32
  | 0, hn => step (qblk m c ⟨0, hn⟩) (kblk m c ⟨0, hn⟩) (sqblk m c ⟨0, hn⟩) (skblk m c ⟨0, hn⟩) (k0_pay2 (F := F))
  | n + 1, hn =>
    if (n + 1) % 8 = 0 then
      step (qblk m c ⟨n + 1, hn⟩) (kblk m c ⟨n + 1, hn⟩) (sqblk m c ⟨n + 1, hn⟩) (skblk m c ⟨n + 1, hn⟩) (k0_pay2 (F := F))
    else
      step (qblk m c ⟨n + 1, hn⟩) (kblk m c ⟨n + 1, hn⟩) (sqblk m c ⟨n + 1, hn⟩) (skblk m c ⟨n + 1, hn⟩) (accV c n (Nat.lt_of_succ_lt hn))

/-- At a reset point the accumulator restarts from the zero block. -/
theorem accV_reset (c : Dev nD) (t : Fin cfg0.N) (h0 : t.val % 8 = 0) :
    accV m c t.val t.isLt = step (qblk m c t) (kblk m c t) (sqblk m c t) (skblk m c t) (k0_pay2 (F := F)) := by
  obtain ⟨n, hn⟩ := t
  cases n with
  | zero => rfl
  | succ n => exact (if_pos h0).trans rfl

/-- At any other point it continues from what the point before left. -/
theorem accV_acc (c : Dev nD) (t : Fin cfg0.N) (h0 : ¬t.val % 8 = 0) :
    accV m c t.val t.isLt = step (qblk m c t) (kblk m c t) (sqblk m c t) (skblk m c t)
      (accV m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The region's invariant before position `n`: before the first point the launch's; afterwards the accumulator at what
    the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accV m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accV m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accV m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accV m c t.val t.isLt
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accV m c t.val t.isLt := by dsimp only [dats]
theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare.left := by dsimp only [dats]
theorem q3 (c : Dev nD) : (dats m 0 c).q 3 = fullShare.right := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Hand

end
-- ==== Proof.K.Pieces.lean ====
/-
  What each case's stored pieces read back to: the one-point update `step` of the case's input blocks over the zero
  block (case A) or over what the point before left (case B); the output's staging buffer and the accumulator end alike.
-/
import proofs.«143206_j6339371729129_1_alg».proof.Proof.K.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole-shape rectangle's offsets are zero on every axis (rank two: the label tiles). -/
private theorem offsets_zero2 : (![0, 0] : Fin 2 → Nat) = fun _ => 0 := funext fun a => by fin_cases a <;> rfl
/-- The same at rank three (the row and column tiles, the accumulator and the output block). -/
private theorem offsets_zero3 : (![0, 0, 0] : Fin 3 → Nat) = fun _ => 0 := funext fun a => by fin_cases a <;> rfl

/-- Case A's accumulator: of its two whole-buffer stores the later one (the update) covers, and the accumulator value
    the update reads is the zero block the reset stored just before; the four input loads read the whole tiles. -/
theorem sout0_A_0_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) :
    sout0_A_0 c i arg2 harg2 arg3 harg3 arg4 harg4 arg5 harg5 arg6 harg6 arg7 harg7 hc0 x0 x1 x2 x3 = step x0 x1 x2 x3 (k0_pay2 (F := F)) := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_cons_unit_zero (S := S8x256x1) offsets_zero3, View.readCov_unit_zero (S := S8x256x1) _ offsets_zero3]
  unfold step
  simp only [View.readAt_eq_ld, harg2.read_unread, harg3.read_unread, harg4.read_unread, harg5.read_unread,
    View.ld_unit_zero (S := S8x256x512) offsets_zero3, View.ld_unit_zero (S := S8x256) offsets_zero2]

/-- Case A's output buffer: its one whole-buffer store holds the accumulator read back whole after the update, which is
    the update's payload (the later of the accumulator's two stores). -/
theorem out0_A_4_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) :
    out0_A_4 c i arg2 harg2 arg3 harg3 arg4 harg4 arg5 harg5 arg6 harg6 arg7 harg7 hc0 x0 x1 x2 x3 = step x0 x1 x2 x3 (k0_pay2 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero offsets_zero3, View.readCov_cons_toLoadRect, View.readCov_unit_zero (S := S8x256x1) _ offsets_zero3]
  unfold step
  simp only [View.readAt_eq_ld, harg2.read_unread, harg3.read_unread, harg4.read_unread, harg5.read_unread,
    View.ld_unit_zero (S := S8x256x512) offsets_zero3, View.ld_unit_zero (S := S8x256) offsets_zero2]

/-- Case B's accumulator: one whole-buffer store, the update over the handed-in contents read whole. -/
theorem sout0_B_0_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) :
    sout0_B_0 c i arg2 harg2 arg3 harg3 arg4 harg4 arg5 harg5 arg6 harg6 arg7 harg7 hc0 x0 x1 x2 x3 xs0 = step x0 x1 x2 x3 xs0 := by
  unfold sout0_B_0
  rw [View.read_writes_eq_canon _ _ _ (scover0_B_0 c i arg2 harg2 arg3 harg3 arg4 harg4 arg5 harg5 arg6 harg6 arg7 harg7 hc0 x0 x1 x2 x3 xs0)]
  unfold kernelRun0_B
  dsimp only
  sl_unfold_words
  rw [View.canon_unit_zero offsets_zero3]
  unfold step
  simp only [View.readAt_eq_ld, harg2.read_unread, harg3.read_unread, harg4.read_unread, harg5.read_unread, harg7.read_unread,
    View.ld_unit_zero (S := S8x256x512) offsets_zero3, View.ld_unit_zero (S := S8x256) offsets_zero2,
    View.ld_unit_zero (S := S8x256x1) offsets_zero3]

/-- Case B's output buffer: its one store holds the accumulator read back whole after the update. -/
theorem out0_B_4_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) :
    out0_B_4 c i arg2 harg2 arg3 harg3 arg4 harg4 arg5 harg5 arg6 harg6 arg7 harg7 hc0 x0 x1 x2 x3 xs0 = step x0 x1 x2 x3 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero offsets_zero3, View.readCov_cons_toLoadRect]
  unfold step
  simp only [View.readAt_eq_ld, harg2.read_unread, harg3.read_unread, harg4.read_unread, harg5.read_unread, harg7.read_unread,
    View.ld_unit_zero (S := S8x256x512) offsets_zero3, View.ld_unit_zero (S := S8x256) offsets_zero2,
    View.ld_unit_zero (S := S8x256x1) offsets_zero3]

end Cert.Kernel.Hand

end
-- ==== Proof.K.Body.lean ====
/-
  The body obligation: at every grid point the body, called on the windows' current staging buffers (each input's at
  its block, the output's at anything) and on the accumulator (at anything at the very first point, else at what the
  point before left), runs to the end leaving the inputs as they were and the output's buffer and the accumulator at
  the fold's next value.
-/
import proofs.«143206_j6339371729129_1_alg».proof.Proof.K.Pieces

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-! ## The two runs at a grid point -/

/-- The reset case's run at point `t`: on the windows' current staging buffers and the accumulator, the four input
    buffers at the point's blocks. -/
abbrev runA (c : Dev nD) (t : Fin cfg0.N) (h0 : t.val % 8 = 0) :=
  kernelRun0_A c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0)
    (qblk m c t) (kblk m c t) (sqblk m c t) (skblk m c t)

/-- The other case's run at point `t`: the same, the accumulator at what the point before left. -/
abbrev runB (c : Dev nD) (t : Fin cfg0.N) (h0 : ¬t.val % 8 = 0) :=
  kernelRun0_B c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h))
    (qblk m c t) (kblk m c t) (sqblk m c t) (skblk m c t)
    (accV m c (t.val - 1) (Nat.lt_of_le_of_lt (Nat.sub_le _ _) t.isLt))

/-! ## What the stored pieces read back to

  The pieces of either buffer cover it, so reading them back does not depend on what they were written over; over the
  junk contents of the reference view that reading is the one-point update of the case, which is the fold's value at
  the point: from the zero block at a reset point, from the point before's value elsewhere. -/

theorem readS_A (c : Dev nD) (t : Fin cfg0.N) (h0 : t.val % 8 = 0) (f : scM0_0.view.ty.Contents (Elt F)) :
    scM0_0.view.read (Elt F) (scM0_0.view.writes (Elt F) f (runA m c t h0).2.1) = accV m c t.val t.isLt :=
  (View.read_writes_of_cover _ _ VS0_0 VS0_0.junk _ (scover0_A_0 c _ _ _ _ _ _ _ _ _ _ _ _ _ _ _ _ _ _)).trans
    ((sout0_A_0_eq c _ _ _ _ _ _ _ _ _ _ _ _ _ _ _ _ _ _).trans (accV_reset m c t h0).symm)

theorem readO_A (c : Dev nD) (t : Fin cfg0.N) (h0 : t.val % 8 = 0) (f : (ms0_4 t).view.ty.Contents (Elt F)) :
    (ms0_4 t).view.read (Elt F) ((ms0_4 t).view.writes (Elt F) f (runA m c t h0).1) = accV m c t.val t.isLt :=
  (View.read_writes_of_cover _ _ VO0_4 VO0_4.junk _ (cover0_A_4 c _ _ _ _ _ _ _ _ _ _ _ _ _ _ _ _ _ _)).trans
    ((out0_A_4_eq c _ _ _ _ _ _ _ _ _ _ _ _ _ _ _ _ _ _).trans (accV_reset m c t h0).symm)

theorem readS_B (c : Dev nD) (t : Fin cfg0.N) (h0 : ¬t.val % 8 = 0) (f : scM0_0.view.ty.Contents (Elt F)) :
    scM0_0.view.read (Elt F) (scM0_0.view.writes (Elt F) f (runB m c t h0).2.1) = accV m c t.val t.isLt :=
  (View.read_writes_of_cover _ _ VS0_0 VS0_0.junk _ (scover0_B_0 c _ _ _ _ _ _ _ _ _ _ _ _ _ _ _ _ _ _ _)).trans
    ((sout0_B_0_eq c _ _ _ _ _ _ _ _ _ _ _ _ _ _ _ _ _ _ _).trans (accV_acc m c t h0).symm)

theorem readO_B (c : Dev nD) (t : Fin cfg0.N) (h0 : ¬t.val % 8 = 0) (f : (ms0_4 t).view.ty.Contents (Elt F)) :
    (ms0_4 t).view.read (Elt F) ((ms0_4 t).view.writes (Elt F) f (runB m c t h0).1) = accV m c t.val t.isLt :=
  (View.read_writes_of_cover _ _ VO0_4 VO0_4.junk _ (cover0_B_4 c _ _ _ _ _ _ _ _ _ _ _ _ _ _ _ _ _ _ _)).trans
    ((out0_B_4_eq c _ _ _ _ _ _ _ _ _ _ _ _ _ _ _ _ _ _ _).trans (accV_acc m c t h0).symm)

/-! ## The body at a grid point -/

set_option maxHeartbeats 4800000 in
/-- The body at any point. The inputs' buffers hold the point's blocks and no window is idle, so every window's post is
    its buffer at the proof data's `after`. At a reset point the reset case's run applies whatever the accumulator
    holds (at the very first point the launch's invariant gives it at anything; at a later reset point the invariant names
    what the point before left, which the run forgets); elsewhere the other case's run applies to the accumulator at
    what the point before left. Either run returns the inputs as they were and the output's buffer and the accumulator
    with the case's pieces written, which read back to the fold's value at the point. The generator register and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 8 = 0
  · -- a reset point: the accumulator is handed over at some contents
    have hacc : PhiS m c t.val (Nat.le_of_lt t.isLt)
        ⊢ iprop(iprop((∃ d, owns (c : Thread nD τ) scM0_0 fullShare d)) ∗ (∃ r, prngReg c r)) := by
      by_cases hz : t.val = 0
      · -- the launch's invariant is this very proposition (the rewrite leaves an entailment of a proposition by itself)
        rw [PhiS_zero m c _ _ hz, PhiA0_eq]
      · rw [PhiS_pos m c _ _ hz]
        iintro ⟨HS0, Hg⟩
        isplitl [HS0]
        · iexists _; iexact HS0
        iexact Hg
    iintro ⟨HΦ, Ho, ⟨%d0, H0⟩, ⟨%d1, H1⟩, ⟨%d2, H2⟩, ⟨%d3, H3⟩, ⟨%d4, H4⟩⟩
    ihave ⟨HS0, Hg⟩ := hacc $$ HΦ
    iapply ((runA m c t h0).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact readS_A m c t h0 es0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact readO_A m c t h0 e4
  · -- any other point is not the first: the accumulator holds what the point before left
    have hz : t.val ≠ 0 := fun h => h0 (by rw [h])
    rw [PhiS_pos m c _ _ hz]
    iintro ⟨⟨HS0, Hg⟩, Ho, ⟨%d0, H0⟩, ⟨%d1, H1⟩, ⟨%d2, H2⟩, ⟨%d3, H3⟩, ⟨%d4, H4⟩⟩
    iapply ((runB m c t h0).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact readS_B m c t h0 es0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact readO_B m c t h0 e4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  -- before the first point the invariant is the launch's by definition: the rewrite leaves it entailing itself
  rw [show (dats m 0 c).Φ 0 = PhiS m c 0 (Nat.zero_le _) from rfl, PhiS_zero m c 0 _ rfl]

/-- After the last point the invariant gives the launch's back: the accumulator's contents are forgotten. -/
theorem hout (c : Dev nD) : (dats m 0 c).Φ (Fin.last cfg0.N) ⊢ Pipeline.ΦA spec0 c := by
  have hN : cfg0.N ≠ 0 := by rw [show cfg0.N = 64 from N_0]; decide
  rw [show (dats m 0 c).Φ (Fin.last cfg0.N) = PhiS m c cfg0.N (Nat.le_refl _) from rfl, PhiS_pos m c _ _ hN, PhiA0_eq]
  iintro ⟨HS0, Hg⟩
  isplitl [HS0]
  · iexists _; iexact HS0
  iexact Hg

end Cert.Kernel.Hand

end
-- ==== Proof.K.Launch.lean ====
/-
  The launch. The kernel is handed the prediction array through two windows (the row tile and the column tile) and the
  label array through two more, so the windows' arrays are not distinct: each array's full share is split in two halves
  at the region's entry, one per window on it, and joined again at its exit; the output array is held whole. After the
  region the host sums the accumulated rows and divides by the number of pairs. From a body obligation over proof data
  with those shares, every weakly fair execution of @main terminates with the result at the host lines' value of the
  output array after the last write-back, and with the two argument arrays as they were.
-/
import proofs.«143206_j6339371729129_1_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region: the sum of the accumulated rows over the element count. -/
def tailOf (o : (⟨S8x2048x1, .f32⟩ : BufTy).Contents (Elt F)) : (⟨S_, .f32⟩ : BufTy).Contents (Elt F) :=
  Host.divf (Host.reduceAdd o (constant S_ .f32 0x00000000#32) Gen.reducesTo_S8x2048x1_S_d0_1_2 Gen.h_S_) (constant S_ .f32 0x4C000000#32)

/-! ## The arrays at the region's entry: each shared array's full share in two halves -/

/-- The buffers behind the windows' arrays, one by one: the prediction array, the label array, the accumulated rows. -/
private theorem arrBufs0_eq (c : Dev nD) (Vc : (b : Ref sig .tc) → Buf (Elt F) ((c.tc : Thread nD τ).loc b)) :
    (Pipeline.arrBufs (Ix := Unit) (Name := ℕ) (U := UR sig nD τ) (Lvl := ℕ) spec0 c Vc : sProp 𝕄)
      = iprop((((c.tc : Thread nD τ).loc main_arg0) ↦{fullShare} Vc main_arg0) ∗ (((c.tc : Thread nD τ).loc main_arg1) ↦{fullShare} Vc main_arg1)
          ∗ (((c.tc : Thread nD τ).loc main_v0) ↦{fullShare} Vc main_v0)) := by
  unfold Pipeline.arrBufs
  exact bigSep_eq_bigSepL_of_eq [main_arg0, main_arg1, main_v0] (by decide) (by decide) _

/-- At the region's entry the three buffers held whole make the five windows' arrays: the prediction array's full share
    is the left half (window 0) and the right half (window 1), the label array's likewise (windows 2 and 3), and the
    accumulated rows stay whole (window 4); an array at entry holds the region-entry contents. -/
private theorem split0 (c : Dev nD) (dat : Dat τ (Elt F) Unit ℕ (UR sig nD τ) ℕ cfg0 c)
    (hq0 : dat.q 0 = fullShare.left) (hq1 : dat.q 1 = fullShare.right)
    (hq2 : dat.q 2 = fullShare.left) (hq3 : dat.q 3 = fullShare.right)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  have hs0 : dat.share 0 = fullShare.left := (if_neg (by decide)).trans hq0
  have hs1 : dat.share 1 = fullShare.right := (if_neg (by decide)).trans hq1
  have hs2 : dat.share 2 = fullShare.left := (if_neg (by decide)).trans hq2
  have hs3 : dat.share 3 = fullShare.right := (if_neg (by decide)).trans hq3
  have hs4 : dat.share 4 = fullShare := if_pos (by decide)
  rw [arrBufs0_eq]
  unfold Dat.arrays
  rw [bigSep_W0]
  simp only [Dat.arrAt]
  rw [(arr_whole0 0).set_eq_univ, (arr_whole0 2).set_eq_univ, (arr_whole0 4).set_eq_univ,
    hs0, hs1, hs2, hs3, hs4, hA 0, hA 1, hA 2, hA 3, hA 4]
  iintro ⟨H0, H1, H4⟩
  ihave H0 := (pointsTo_share (PosShare.mem_left_op_right fullShare)).1 $$ H0
  ihave H1 := (pointsTo_share (PosShare.mem_left_op_right fullShare)).1 $$ H1
  icases H0 with ⟨H0l, H0r⟩
  icases H1 with ⟨H1l, H1r⟩
  isplitl [H0l]; · iexact H0l
  isplitl [H0r]; · iexact H0r
  isplitl [H1l]; · iexact H1l
  isplitl [H1r]; · iexact H1r
  iexact H4

/-! ## The host lines after the region -/

/-- The references the host lines touch: the accumulated rows, the two constants, the sum and the quotient. -/
private abbrev T5 : Finset (Ref sig .tc) := {main_v0, main_cst, main_v1, main_cst_0, main_v2}
/-- The same as buffers of the device. -/
private abbrev S5 : Finset (DevRef τ sig) := T5.map ⟨Proc.devRef (sig := sig) (.tc : Proc τ), Proc.devRef_injective _⟩

/-- A listed reference is among them. -/
private theorem mem_S5 {r : Ref sig .tc} (h : r ∈ T5) : Proc.devRef (τ := τ) .tc r ∈ S5 := Finset.mem_map_of_mem _ h

/-- Those buffers held whole at a valuation, one by one. -/
private theorem held_S5 (c : Dev nD) (W : Valuation τ sig (Elt F)) :
    (StableHlo.held (c.tc : Thread nD τ) S5 W : sProp 𝕄)
      = iprop((((c.tc : Thread nD τ).loc main_v0) ↦{fullShare} W (Proc.devRef .tc main_v0))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_cst_0) ↦{fullShare} W (Proc.devRef .tc main_cst_0))
          ∗ (((c.tc : Thread nD τ).loc main_v2) ↦{fullShare} W (Proc.devRef .tc main_v2))) := by
  unfold StableHlo.held
  rw [bigSep_map, bigSep_eq_bigSepL_of_eq [main_v0, main_cst, main_v1, main_cst_0, main_v2] (by decide) (by decide)]
  rfl

/-- Every host line stays within those buffers. -/
private theorem hostOps1_sub5 : ∀ ops ∈ [(hostOps1 : List (HloOp τ sig (Elt F)))], ∀ op ∈ ops, op.bufs ⊆ S5 := by
  intro ops ho op h
  rw [List.mem_singleton] at ho; subst ho
  have hall : (hostOps1 : List (HloOp τ sig (Elt F))).Forall fun op => op.bufs ⊆ S5 := by
    refine ⟨?_, ?_, ?_, ?_⟩
    · show (StableHlo.nullary _ _ _).bufs ⊆ S5
      rw [StableHlo.nullary_bufs]; exact Finset.singleton_subset_iff.mpr (mem_S5 (by decide))
    · show (StableHlo.binary _ _ _ _ _ _ _).bufs ⊆ S5
      rw [StableHlo.binary_bufs]
      exact Finset.insert_subset (mem_S5 (by decide)) (Finset.insert_subset (mem_S5 (by decide)) (Finset.singleton_subset_iff.mpr (mem_S5 (by decide))))
    · show (StableHlo.nullary _ _ _).bufs ⊆ S5
      rw [StableHlo.nullary_bufs]; exact Finset.singleton_subset_iff.mpr (mem_S5 (by decide))
    · show (StableHlo.binary _ _ _ _ _ _ _).bufs ⊆ S5
      rw [StableHlo.binary_bufs]
      exact Finset.insert_subset (mem_S5 (by decide)) (Finset.insert_subset (mem_S5 (by decide)) (Finset.singleton_subset_iff.mpr (mem_S5 (by decide))))
  exact List.forall_iff_forall_mem.mp hall op h

/-- No host line allocates. -/
private theorem hostOps1_fresh5 : ∀ ops ∈ [(hostOps1 : List (HloOp τ sig (Elt F)))], ∀ op ∈ ops, op.fresh = ∅ := by
  intro ops ho op h
  rw [List.mem_singleton] at ho; subst ho
  exact List.forall_iff_forall_mem.mp hostOps1_fresh op h

/-- The quotient after the lines is the host lines' value of the accumulated rows. -/
private theorem after_v2 (W : Valuation τ sig (Elt F)) :
    StableHlo.after hostOps1 W (Proc.devRef .tc main_v2) = tailOf (W (Proc.devRef .tc main_v0)) := by
  unfold tailOf
  after_results

/-- The lines do not write the accumulated rows. -/
private theorem after_v0 (W : Valuation τ sig (Elt F)) :
    StableHlo.after hostOps1 W (Proc.devRef .tc main_v0) = W (Proc.devRef .tc main_v0) := by
  after_results

/-- From the region's exit the four host lines run within the accumulated rows (held whole through window 4) and the
    four buffers that bypass the region, the input windows' half shares framed aside; they leave the rows as they were
    and the quotient at the host lines' value of the rows. -/
private theorem tail0 (c : Dev nD) (dat : Dat τ (Elt F) Unit ℕ (UR sig nD τ) ℕ cfg0 c) (Q' : PUnit → sProp 𝕄) :
    iprop((iprop(dat.arrays (dat.arrAt · cfg0.N)
              ∗ (((c.tc : Thread nD τ).loc main_v2) ↦{fullShare} tailOf (dat.arrAt 4 cfg0.N) : sProp 𝕄)) -∗ Q' ⟨⟩)
        ∗ boundary (c.tc : Thread nD τ) ∗ dat.arrays (dat.arrAt · cfg0.N)
        ∗ Pipeline.unscopedRest (Ix := Unit) (Name := ℕ) (U := UR sig nD τ) (Lvl := ℕ) spec0 c (V m c))
      ⊢ wp frame (wpE (Pipeline.defs pcfgs (defs₀ (F := F))) (Variants.lift Variants.none) (c.tc : Thread nD τ) none) Set.univ
          (Pipeline.chain [StableHlo.seq hostOps1]) Q' := by
  classical
  have hs4 : dat.share 4 = fullShare := if_pos (by decide)
  let W : Valuation τ sig (Elt F) := Function.update (V0 m c) (Proc.devRef .tc main_v0) (dat.arrAt 4 cfg0.N)
  have hWv0 : W (Proc.devRef .tc main_v0) = dat.arrAt 4 cfg0.N := Function.update_self _ _ _
  have hWne : ∀ r : Ref sig .tc, r ≠ main_v0 → W (Proc.devRef .tc r) = V m c r :=
    fun r h => Function.update_of_ne (StableHlo.devRef_ne_of_ne h) _ _
  have hpre : (iprop((((c.tc : Thread nD τ).loc main_v0) ↦{fullShare} dat.arrAt 4 cfg0.N)
        ∗ Pipeline.unscopedRest (Ix := Unit) (Name := ℕ) (U := UR sig nD τ) (Lvl := ℕ) spec0 c (V m c)) : sProp 𝕄)
      = StableHlo.held (c.tc : Thread nD τ) S5 W := by
    rw [held_S5, unscopedRest0_eq, hWv0, hWne main_cst (by decide), hWne main_v1 (by decide), hWne main_cst_0 (by decide), hWne main_v2 (by decide)]
  unfold Dat.arrays
  rw [bigSep_W0, (arr_whole0 4).set_eq_univ, hs4]
  have hpost : (StableHlo.held (c.tc : Thread nD τ) S5 (StableHlo.after (List.flatten [hostOps1]) W) : sProp 𝕄)
      = iprop((((c.tc : Thread nD τ).loc main_v0) ↦{fullShare} dat.arrAt 4 cfg0.N)
          ∗ (((c.tc : Thread nD τ).loc main_cst) ↦{fullShare} StableHlo.after hostOps1 W (Proc.devRef .tc main_cst))
          ∗ (((c.tc : Thread nD τ).loc main_v1) ↦{fullShare} StableHlo.after hostOps1 W (Proc.devRef .tc main_v1))
          ∗ (((c.tc : Thread nD τ).loc main_cst_0) ↦{fullShare} StableHlo.after hostOps1 W (Proc.devRef .tc main_cst_0))
          ∗ (((c.tc : Thread nD τ).loc main_v2) ↦{fullShare} tailOf (dat.arrAt 4 cfg0.N))) := by
    rw [show List.flatten [(hostOps1 : List (HloOp τ sig (Elt F)))] = hostOps1 from by simp only [List.flatten_cons, List.flatten_nil, List.append_nil],
      held_S5, after_v0, after_v2, hWv0]
  show _ ⊢ wp frame _ Set.univ (Pipeline.chain (([hostOps1] : List (List (HloOp τ sig (Elt F)))).map StableHlo.seq ++ [])) Q'
  iintro ⟨Hk, Hb, ⟨H0, H1, H2, H3, H4⟩, HZ⟩
  ihave HS := (Entails.of_eq hpre) $$ [H4 HZ]
  · isplitl [H4]; · iexact H4
    iexact HZ
  iapply (Pipeline.wp_seqs_then pcfgs defs₀ Variants.none c S5 [] [hostOps1] hostOps1_sub5 hostOps1_fresh5 W) $$ [Hb HS]
  · isplitl [Hb]; · iexact Hb
    iexact HS
  iintro Hb
  rw [Pipeline.chain_nil, wp_pure, hpost]
  imodintro
  iapply Hk
  icases Hb with ⟨-, H4, -, -, -, Hv2⟩
  isplitr [Hv2]
  · isplitl [H0]; · iexact H0
    isplitl [H1]; · iexact H1
    isplitl [H2]; · iexact H2
    isplitl [H3]; · iexact H3
    iexact H4
  · iexact Hv2

/-- THE RUN, for any proof data over the region-entry arrays that holds the prediction array at the two halves of the
    full share through windows 0 and 1 and the label array likewise through windows 2 and 3, owes nothing, and whose
    invariant starts and ends at the launch's. -/
theorem run_main
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare.left) (hq3 : ∀ c, (dats 0 c).q 3 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v2) = tailOf ((dats 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  unfold defs
  exact Pipeline.θ_run_region_pf_tail (fun p => (cfgs p).toPCfg) (fun p => (cfgs p).toPCfg_adm) dats () cellOf_inj 0 winFacts₀0
    (Pipeline.OwnSemFacts.none spec0) (Pipeline.PreFacts.none _)
    emb₁ defs₀ Variants.none m ρ main (fun _ => Pipeline.chain [StableHlo.seq hostOps1]) hbody
    block_pos0 arr_whole0 stage_whole0 howed
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => split0 m c (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => (((c.tc : Thread nD τ).loc main_v2) ↦{fullShare} tailOf ((dats 0 c).arrAt 4 cfg0.N) : sProp 𝕄))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail0 m c (dats 0 c) Q')
    (QY := fun c s => s.mem ((c.tc : Thread nD τ).loc main_v2) = tailOf ((dats 0 c).arrAt 4 cfg0.N))
    (hY := fun c s' => by
      iintro ⟨-, HU, HSI⟩
      imodintro
      icombine HSI HU gives %h
      isplitr
      · ipureintro; exact Buf.eq_of_forall_mem_univ h
      · iexact HSI)
    (hQ := fun s h c => ⟨(h c).2.2, by
      have h0 := (h c).1 0
      rw [Pipeline.Dat.arrAt_in _ 0 rfl, hA] at h0
      exact h0, by
      have h2 := (h c).1 2
      rw [Pipeline.Dat.arrAt_in _ 2 rfl, hA] at h2
      exact h2⟩)

end Cert.Kernel.Hand

end
-- ==== Proof.K.Run.lean ====
/-
  The kernel program's run: the launch applied to the proof data and its body obligation.
-/
import proofs.«143206_j6339371729129_1_alg».proof.Proof.K.Body
import proofs.«143206_j6339371729129_1_alg».proof.Proof.K.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v2) = tailOf ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (dats m) (fun c => (body_obligation m c).loose) (q0 m) (q1 m) (q2 m) (q3 m) (fun _ _ => rfl) (A_eq m) (hin m) (hout m)

/-- The frame: every weakly fair execution terminates, nothing faults, and the argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.Kernel.Hand

end
-- ==== Proof.KI.Kit.lean ====
/-
  The region of the pairwise-distance loss kernel seen from one TensorCore: the arrays as the region finds them (no
  host operation precedes it), each window's block at a grid point, the staging and scratch memrefs the body is called
  with, the body's one branch (the reset of the row accumulator at the first tile of a row of tiles, points = 0 mod 8)
  and @main around the region (the region, then the host's sum over all rows and the division by the element count).
  Windows 0 and 1 read the prediction array (the row tile and the column tile), windows 2 and 3 the label array,
  window 4 is the per-row accumulator written back.
-/
import proofs.«143206_j6339371729129_1_alg».proof.Proof.Gen.KernelIdeal.Launch
import proofs.«143206_j6339371729129_1_alg».proof.Proof.Gen.KernelIdeal.Skeleton
import proofs.«143206_j6339371729129_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents (nothing runs before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the four host lines (the sum over the rows and the division). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the block
    index has not moved), for any proof data over the region-entry arrays whose body leaves the input blocks in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The accumulator is reset where the column-tile coordinate is zero. -/
abbrev cond0_0 (i : grid0.Coords) : Prop := (Scalar.cmpi .ne (Scalar.extui (Scalar.cmpi .eq (BitVec.ofNat 32 (i 1).val) 0#32)) 0#32) = 1#1
/-- That is at the points = 0 (mod 8): decided over the 64 points. -/
theorem hcond0_0 : ∀ t : Fin cfg0.N, cond0_0 (grid0.coords t) ↔ t.val % 8 = 0 :=
  (by decide +kernel : ∀ t : Fin grid0.N, cond0_0 (grid0.coords t) ↔ t.val % 8 = 0)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The memrefs the body is called with -/

abbrev ms0_0 (t : Fin cfg0.N) : Memref sig .tc .vmem S8x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256x1 .f32 := win0_4.stage (cfg0.slots t 4)
abbrev hs0_4 (t : Fin cfg0.N) : (ms0_4 t).IsWhole := hstage0_4 ((cfg0.slots t 4).cast nbuf0_4)
/-- The row accumulator: a whole scoped buffer of the kernel's own, carried from point to point. -/
abbrev scM0_0 : Memref sig .tc .vmem S8x256x1 .f32 := Memref.whole cc0_scratch0
abbrev VS0_0 : View sig .tc .vmem S8x256x1 .f32 := scM0_0.view
/-- One staging buffer of the output window, through which its contents are stated. -/
abbrev VO0_4 : View sig .tc .vmem S8x256x1 .f32 := (Memref.whole cc0_stg4_0 : Memref sig .tc .vmem S8x256x1 .f32).view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## One point's arithmetic -/

/-- What one grid point adds to the row accumulator `acc`: from the row tile `q`, the column tile `k` and their label
    tiles, the per-row sum over the column tile of the pairwise loss, added to `acc`. -/
def step (q k : Vec F S8x256x512 .f32) (sq sk : Vec F S8x256 .i32) (acc : Vec F S8x256x1 .f32) : Vec F S8x256x1 .f32 :=
  k0_pay1 (k0_pay3 q k) (k0_pay4 q k) (k0_pay5 (F := F) sq sk) (Scalar.ofBits .f32 0x40000000#32) acc

end Cert.KernelIdeal.Hand

end
-- ==== Proof.KI.Runs.lean ====
/-
  The kernel body run once per case of its one branch, on whole staging memrefs: the row tile, the column tile and the
  two label tiles at given contents, the output's buffer at anything, and the row accumulator at anything (case A: the
  branch resets it, the first column tile of a row of tiles) or at what the point before left (case B). Each run ends
  holding the inputs as they were, and the output's buffer and the accumulator with the body's stores written: the
  lists of stored pieces are found by running the body.
-/
import proofs.«143206_j6339371729129_1_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Case A (the column-tile coordinate is zero): the accumulator is reset, then this tile's row sums are added. -/
noncomputable def kernelRun0_A (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i)
    (x0 x1 : Vec F S8x256x512 .f32) (x2 x3 : Vec F S8x256 .i32) :
    Σ' (L4 : List (View.Piece (Elt F) S8x256x1 .f32)), { LS0 : List (View.Piece (Elt F) S8x256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

set_option maxHeartbeats 1000000 in
/-- Case B (a later column tile): this tile's row sums are added to what the point before left in the accumulator. -/
noncomputable def kernelRun0_B (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i)
    (x0 x1 : Vec F S8x256x512 .f32) (x2 x3 : Vec F S8x256 .i32) (xs0 : Vec F S8x256x1 .f32) :
    Σ' (L4 : List (View.Piece (Elt F) S8x256x1 .f32)), { LS0 : List (View.Piece (Elt F) S8x256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Data.lean ====
/-
  The proof data of the one pipeline. The row accumulator after point n is a fold of the one-point update `step` over
  the points since the last reset (the points = 0 mod 8 start from the zero block): `accV`. The output window's staging
  buffer is left at the same contents at every point; the four input windows' buffers at their blocks. The prediction
  array is read by windows 0 and 1 and the label array by windows 2 and 3: each pair of windows holds its array at the
  two halves of the full share.
-/
import proofs.«143206_j6339371729129_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, at their literal types -/

abbrev qblk (c : Dev nD) (t : Fin cfg0.N) : Vec F S8x256x512 .f32 := iblk m c 0 t
abbrev kblk (c : Dev nD) (t : Fin cfg0.N) : Vec F S8x256x512 .f32 := iblk m c 1 t
abbrev sqblk (c : Dev nD) (t : Fin cfg0.N) : Vec F S8x256 .i32 := iblk m c 2 t
abbrev skblk (c : Dev nD) (t : Fin cfg0.N) : Vec F S8x256 .i32 := iblk m c 3 t

/-! ## What each case's stores leave -/

theorem cover0_A_4 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) (y : S8x256x1.Idx) :
    ∃ pc ∈ (kernelRun0_A c i arg2 harg2 arg3 harg3 arg4 harg4 arg5 harg5 arg6 harg6 arg7 harg7 hc0 x0 x1 x2 x3).1, y ∈ pc.1.set :=
  View.cover_of_tiledL (kernelRun0_A c i arg2 harg2 arg3 harg3 arg4 harg4 arg5 harg5 arg6 harg6 arg7 harg7 hc0 x0 x1 x2 x3).1 S8x256x1.size (by sl_kernel_rfl) y
theorem scover0_A_0 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) (y : S8x256x1.Idx) :
    ∃ pc ∈ (kernelRun0_A c i arg2 harg2 arg3 harg3 arg4 harg4 arg5 harg5 arg6 harg6 arg7 harg7 hc0 x0 x1 x2 x3).2.1, y ∈ pc.1.set :=
  View.cover_of_tiledL (kernelRun0_A c i arg2 harg2 arg3 harg3 arg4 harg4 arg5 harg5 arg6 harg6 arg7 harg7 hc0 x0 x1 x2 x3).2.1 S8x256x1.size (by sl_kernel_rfl) y
theorem cover0_B_4 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) (y : S8x256x1.Idx) :
    ∃ pc ∈ (kernelRun0_B c i arg2 harg2 arg3 harg3 arg4 harg4 arg5 harg5 arg6 harg6 arg7 harg7 hc0 x0 x1 x2 x3 xs0).1, y ∈ pc.1.set :=
  View.cover_of_tiledL (kernelRun0_B c i arg2 harg2 arg3 harg3 arg4 harg4 arg5 harg5 arg6 harg6 arg7 harg7 hc0 x0 x1 x2 x3 xs0).1 S8x256x1.size (by sl_kernel_rfl) y
theorem scover0_B_0 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) (y : S8x256x1.Idx) :
    ∃ pc ∈ (kernelRun0_B c i arg2 harg2 arg3 harg3 arg4 harg4 arg5 harg5 arg6 harg6 arg7 harg7 hc0 x0 x1 x2 x3 xs0).2.1, y ∈ pc.1.set :=
  View.cover_of_tiledL (kernelRun0_B c i arg2 harg2 arg3 harg3 arg4 harg4 arg5 harg5 arg6 harg6 arg7 harg7 hc0 x0 x1 x2 x3 xs0).2.1 S8x256x1.size (by sl_kernel_rfl) y

/-- What case A leaves in the output's staging buffer: its stored pieces read back. -/
def out0_A_4 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) : Vec F S8x256x1 .f32 :=
  VO0_4.read (Elt F) (VO0_4.writes (Elt F) VO0_4.junk (kernelRun0_A c i arg2 harg2 arg3 harg3 arg4 harg4 arg5 harg5 arg6 harg6 arg7 harg7 hc0 x0 x1 x2 x3).1)
/-- What case A leaves in the accumulator. -/
def sout0_A_0 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) : Vec F S8x256x1 .f32 :=
  VS0_0.read (Elt F) (VS0_0.writes (Elt F) VS0_0.junk (kernelRun0_A c i arg2 harg2 arg3 harg3 arg4 harg4 arg5 harg5 arg6 harg6 arg7 harg7 hc0 x0 x1 x2 x3).2.1)
def out0_B_4 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) : Vec F S8x256x1 .f32 :=
  VO0_4.read (Elt F) (VO0_4.writes (Elt F) VO0_4.junk (kernelRun0_B c i arg2 harg2 arg3 harg3 arg4 harg4 arg5 harg5 arg6 harg6 arg7 harg7 hc0 x0 x1 x2 x3 xs0).1)
def sout0_B_0 (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) : Vec F S8x256x1 .f32 :=
  VS0_0.read (Elt F) (VS0_0.writes (Elt F) VS0_0.junk (kernelRun0_B c i arg2 harg2 arg3 harg3 arg4 harg4 arg5 harg5 arg6 harg6 arg7 harg7 hc0 x0 x1 x2 x3 xs0).2.1)

/-! ## The accumulator point by point -/

/-- The row accumulator (and the output's staging buffer) after the body at position `n`. -/
def accV (c : Dev nD) : (n : ℕ) → n < cfg0.N → Vec F S8x256x1 .f32
  | 0, hn => step (qblk m c ⟨0, hn⟩) (kblk m c ⟨0, hn⟩) (sqblk m c ⟨0, hn⟩) (skblk m c ⟨0, hn⟩) (k0_pay2 (F := F))
  | n + 1, hn =>
    if (n + 1) % 8 = 0 then
      step (qblk m c ⟨n + 1, hn⟩) (kblk m c ⟨n + 1, hn⟩) (sqblk m c ⟨n + 1, hn⟩) (skblk m c ⟨n + 1, hn⟩) (k0_pay2 (F := F))
    else
      step (qblk m c ⟨n + 1, hn⟩) (kblk m c ⟨n + 1, hn⟩) (sqblk m c ⟨n + 1, hn⟩) (skblk m c ⟨n + 1, hn⟩) (accV c n (Nat.lt_of_succ_lt hn))

/-- At a reset point the accumulator restarts from the zero block. -/
theorem accV_reset (c : Dev nD) (t : Fin cfg0.N) (h0 : t.val % 8 = 0) :
    accV m c t.val t.isLt = step (qblk m c t) (kblk m c t) (sqblk m c t) (skblk m c t) (k0_pay2 (F := F)) := by
  obtain ⟨n, hn⟩ := t
  cases n with
  | zero => rfl
  | succ n => exact (if_pos h0).trans rfl

/-- At any other point it continues from what the point before left. -/
theorem accV_acc (c : Dev nD) (t : Fin cfg0.N) (h0 : ¬t.val % 8 = 0) :
    accV m c t.val t.isLt = step (qblk m c t) (kblk m c t) (sqblk m c t) (skblk m c t)
      (accV m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The region's invariant before position `n`: before the first point the launch's; afterwards the accumulator at what
    the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accV m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accV m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accV m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accV m c t.val t.isLt
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = accV m c t.val t.isLt := by dsimp only [dats]
theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare.left := by dsimp only [dats]
theorem q3 (c : Dev nD) : (dats m 0 c).q 3 = fullShare.right := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Hand

end
-- ==== Proof.KI.Pieces.lean ====
/-
  What each case's stored pieces read back to: the one-point update `step` of the case's input blocks over the zero
  block (case A) or over what the point before left (case B); the output's staging buffer and the accumulator end alike.
-/
import proofs.«143206_j6339371729129_1_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole-shape rectangle's offsets are zero on every axis (rank two: the label tiles). -/
private theorem offsets_zero2 : (![0, 0] : Fin 2 → Nat) = fun _ => 0 := funext fun a => by fin_cases a <;> rfl
/-- The same at rank three (the row and column tiles, the accumulator and the output block). -/
private theorem offsets_zero3 : (![0, 0, 0] : Fin 3 → Nat) = fun _ => 0 := funext fun a => by fin_cases a <;> rfl

/-- Case A's accumulator: of its two whole-buffer stores the later one (the update) covers, and the accumulator value
    the update reads is the zero block the reset stored just before; the four input loads read the whole tiles. -/
theorem sout0_A_0_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) :
    sout0_A_0 c i arg2 harg2 arg3 harg3 arg4 harg4 arg5 harg5 arg6 harg6 arg7 harg7 hc0 x0 x1 x2 x3 = step x0 x1 x2 x3 (k0_pay2 (F := F)) := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_cons_unit_zero (S := S8x256x1) offsets_zero3, View.readCov_unit_zero (S := S8x256x1) _ offsets_zero3]
  unfold step
  simp only [View.readAt_eq_ld, harg2.read_unread, harg3.read_unread, harg4.read_unread, harg5.read_unread,
    View.ld_unit_zero (S := S8x256x512) offsets_zero3, View.ld_unit_zero (S := S8x256) offsets_zero2]

/-- Case A's output buffer: its one whole-buffer store holds the accumulator read back whole after the update, which is
    the update's payload (the later of the accumulator's two stores). -/
theorem out0_A_4_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : cond0_0 i) (x0 x1 : Vec F S8x256x512 .f32) (x2 x3 : Vec F S8x256 .i32) :
    out0_A_4 c i arg2 harg2 arg3 harg3 arg4 harg4 arg5 harg5 arg6 harg6 arg7 harg7 hc0 x0 x1 x2 x3 = step x0 x1 x2 x3 (k0_pay2 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero offsets_zero3, View.readCov_cons_toLoadRect, View.readCov_unit_zero (S := S8x256x1) _ offsets_zero3]
  unfold step
  simp only [View.readAt_eq_ld, harg2.read_unread, harg3.read_unread, harg4.read_unread, harg5.read_unread,
    View.ld_unit_zero (S := S8x256x512) offsets_zero3, View.ld_unit_zero (S := S8x256) offsets_zero2]

/-- Case B's accumulator: one whole-buffer store, the update over the handed-in contents read whole. -/
theorem sout0_B_0_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) :
    sout0_B_0 c i arg2 harg2 arg3 harg3 arg4 harg4 arg5 harg5 arg6 harg6 arg7 harg7 hc0 x0 x1 x2 x3 xs0 = step x0 x1 x2 x3 xs0 := by
  unfold sout0_B_0
  rw [View.read_writes_eq_canon _ _ _ (scover0_B_0 c i arg2 harg2 arg3 harg3 arg4 harg4 arg5 harg5 arg6 harg6 arg7 harg7 hc0 x0 x1 x2 x3 xs0)]
  unfold kernelRun0_B
  dsimp only
  sl_unfold_words
  rw [View.canon_unit_zero offsets_zero3]
  unfold step
  simp only [View.readAt_eq_ld, harg2.read_unread, harg3.read_unread, harg4.read_unread, harg5.read_unread, harg7.read_unread,
    View.ld_unit_zero (S := S8x256x512) offsets_zero3, View.ld_unit_zero (S := S8x256) offsets_zero2,
    View.ld_unit_zero (S := S8x256x1) offsets_zero3]

/-- Case B's output buffer: its one store holds the accumulator read back whole after the update. -/
theorem out0_B_4_eq (c : Dev nD) (i : grid0.Coords) (arg2 : Memref sig .tc .vmem S8x256x512 .f32) (harg2 : arg2.IsWhole) (arg3 : Memref sig .tc .vmem S8x256x512 .f32) (harg3 : arg3.IsWhole) (arg4 : Memref sig .tc .vmem S8x256 .i32) (harg4 : arg4.IsWhole) (arg5 : Memref sig .tc .vmem S8x256 .i32) (harg5 : arg5.IsWhole) (arg6 : Memref sig .tc .vmem S8x256x1 .f32) (harg6 : arg6.IsWhole) (arg7 : Memref sig .tc .vmem S8x256x1 .f32) (harg7 : arg7.IsWhole) (hc0 : ¬cond0_0 i) (x0 x1 : Vec F S8x256x512 .f32) (x2 x3 : Vec F S8x256 .i32) (xs0 : Vec F S8x256x1 .f32) :
    out0_B_4 c i arg2 harg2 arg3 harg3 arg4 harg4 arg5 harg5 arg6 harg6 arg7 harg7 hc0 x0 x1 x2 x3 xs0 = step x0 x1 x2 x3 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero offsets_zero3, View.readCov_cons_toLoadRect]
  unfold step
  simp only [View.readAt_eq_ld, harg2.read_unread, harg3.read_unread, harg4.read_unread, harg5.read_unread, harg7.read_unread,
    View.ld_unit_zero (S := S8x256x512) offsets_zero3, View.ld_unit_zero (S := S8x256) offsets_zero2,
    View.ld_unit_zero (S := S8x256x1) offsets_zero3]

end Cert.KernelIdeal.Hand

end
-- ==== Proof.KI.Body.lean ====
/-
  The body obligation: at every grid point the body, called on the windows' current staging buffers (each input's at
  its block, the output's at anything) and on the accumulator (at anything at the very first point, else at what the
  point before left), runs to the end leaving the inputs as they were and the output's buffer and the accumulator at
  the fold's next value.
-/
import proofs.«143206_j6339371729129_1_alg».proof.Proof.KI.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-! ## The two runs at a grid point -/

/-- The reset case's run at point `t`: on the windows' current staging buffers and the accumulator, the four input
    buffers at the point's blocks. -/
abbrev runA (c : Dev nD) (t : Fin cfg0.N) (h0 : t.val % 8 = 0) :=
  kernelRun0_A c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0)
    (qblk m c t) (kblk m c t) (sqblk m c t) (skblk m c t)

/-- The other case's run at point `t`: the same, the accumulator at what the point before left. -/
abbrev runB (c : Dev nD) (t : Fin cfg0.N) (h0 : ¬t.val % 8 = 0) :=
  kernelRun0_B c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h))
    (qblk m c t) (kblk m c t) (sqblk m c t) (skblk m c t)
    (accV m c (t.val - 1) (Nat.lt_of_le_of_lt (Nat.sub_le _ _) t.isLt))

/-! ## What the stored pieces read back to

  The pieces of either buffer cover it, so reading them back does not depend on what they were written over; over the
  junk contents of the reference view that reading is the one-point update of the case, which is the fold's value at
  the point: from the zero block at a reset point, from the point before's value elsewhere. -/

theorem readS_A (c : Dev nD) (t : Fin cfg0.N) (h0 : t.val % 8 = 0) (f : scM0_0.view.ty.Contents (Elt F)) :
    scM0_0.view.read (Elt F) (scM0_0.view.writes (Elt F) f (runA m c t h0).2.1) = accV m c t.val t.isLt :=
  (View.read_writes_of_cover _ _ VS0_0 VS0_0.junk _ (scover0_A_0 c _ _ _ _ _ _ _ _ _ _ _ _ _ _ _ _ _ _)).trans
    ((sout0_A_0_eq c _ _ _ _ _ _ _ _ _ _ _ _ _ _ _ _ _ _).trans (accV_reset m c t h0).symm)

theorem readO_A (c : Dev nD) (t : Fin cfg0.N) (h0 : t.val % 8 = 0) (f : (ms0_4 t).view.ty.Contents (Elt F)) :
    (ms0_4 t).view.read (Elt F) ((ms0_4 t).view.writes (Elt F) f (runA m c t h0).1) = accV m c t.val t.isLt :=
  (View.read_writes_of_cover _ _ VO0_4 VO0_4.junk _ (cover0_A_4 c _ _ _ _ _ _ _ _ _ _ _ _ _ _ _ _ _ _)).trans
    ((out0_A_4_eq c _ _ _ _ _ _ _ _ _ _ _ _ _ _ _ _ _ _).trans (accV_reset m c t h0).symm)

theorem readS_B (c : Dev nD) (t : Fin cfg0.N) (h0 : ¬t.val % 8 = 0) (f : scM0_0.view.ty.Contents (Elt F)) :
    scM0_0.view.read (Elt F) (scM0_0.view.writes (Elt F) f (runB m c t h0).2.1) = accV m c t.val t.isLt :=
  (View.read_writes_of_cover _ _ VS0_0 VS0_0.junk _ (scover0_B_0 c _ _ _ _ _ _ _ _ _ _ _ _ _ _ _ _ _ _ _)).trans
    ((sout0_B_0_eq c _ _ _ _ _ _ _ _ _ _ _ _ _ _ _ _ _ _ _).trans (accV_acc m c t h0).symm)

theorem readO_B (c : Dev nD) (t : Fin cfg0.N) (h0 : ¬t.val % 8 = 0) (f : (ms0_4 t).view.ty.Contents (Elt F)) :
    (ms0_4 t).view.read (Elt F) ((ms0_4 t).view.writes (Elt F) f (runB m c t h0).1) = accV m c t.val t.isLt :=
  (View.read_writes_of_cover _ _ VO0_4 VO0_4.junk _ (cover0_B_4 c _ _ _ _ _ _ _ _ _ _ _ _ _ _ _ _ _ _ _)).trans
    ((out0_B_4_eq c _ _ _ _ _ _ _ _ _ _ _ _ _ _ _ _ _ _ _).trans (accV_acc m c t h0).symm)

/-! ## The body at a grid point -/

set_option maxHeartbeats 4800000 in
/-- The body at any point. The inputs' buffers hold the point's blocks and no window is idle, so every window's post is
    its buffer at the proof data's `after`. At a reset point the reset case's run applies whatever the accumulator
    holds (at the very first point the launch's invariant gives it at anything; at a later reset point the invariant names
    what the point before left, which the run forgets); elsewhere the other case's run applies to the accumulator at
    what the point before left. Either run returns the inputs as they were and the output's buffer and the accumulator
    with the case's pieces written, which read back to the fold's value at the point. The generator register and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 8 = 0
  · -- a reset point: the accumulator is handed over at some contents
    have hacc : PhiS m c t.val (Nat.le_of_lt t.isLt)
        ⊢ iprop(iprop((∃ d, owns (c : Thread nD τ) scM0_0 fullShare d)) ∗ (∃ r, prngReg c r)) := by
      by_cases hz : t.val = 0
      · -- the launch's invariant is this very proposition (the rewrite leaves an entailment of a proposition by itself)
        rw [PhiS_zero m c _ _ hz, PhiA0_eq]
      · rw [PhiS_pos m c _ _ hz]
        iintro ⟨HS0, Hg⟩
        isplitl [HS0]
        · iexists _; iexact HS0
        iexact Hg
    iintro ⟨HΦ, Ho, ⟨%d0, H0⟩, ⟨%d1, H1⟩, ⟨%d2, H2⟩, ⟨%d3, H3⟩, ⟨%d4, H4⟩⟩
    ihave ⟨HS0, Hg⟩ := hacc $$ HΦ
    iapply ((runA m c t h0).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact readS_A m c t h0 es0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact readO_A m c t h0 e4
  · -- any other point is not the first: the accumulator holds what the point before left
    have hz : t.val ≠ 0 := fun h => h0 (by rw [h])
    rw [PhiS_pos m c _ _ hz]
    iintro ⟨⟨HS0, Hg⟩, Ho, ⟨%d0, H0⟩, ⟨%d1, H1⟩, ⟨%d2, H2⟩, ⟨%d3, H3⟩, ⟨%d4, H4⟩⟩
    iapply ((runB m c t h0).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact readS_B m c t h0 es0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact readO_B m c t h0 e4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  -- before the first point the invariant is the launch's by definition: the rewrite leaves it entailing itself
  rw [show (dats m 0 c).Φ 0 = PhiS m c 0 (Nat.zero_le _) from rfl, PhiS_zero m c 0 _ rfl]

/-- After the last point the invariant gives the launch's back: the accumulator's contents are forgotten. -/
theorem hout (c : Dev nD) : (dats m 0 c).Φ (Fin.last cfg0.N) ⊢ Pipeline.ΦA spec0 c := by
  have hN : cfg0.N ≠ 0 := by rw [show cfg0.N = 64 from N_0]; decide
  rw [show (dats m 0 c).Φ (Fin.last cfg0.N) = PhiS m c cfg0.N (Nat.le_refl _) from rfl, PhiS_pos m c _ _ hN, PhiA0_eq]
  iintro ⟨HS0, Hg⟩
  isplitl [HS0]
  · iexists _; iexact HS0
  iexact Hg

end Cert.KernelIdeal.Hand

end
-- ==== Proof.KI.Launch.lean ====
/-
  The launch. The kernel is handed the prediction array through two windows (the row tile and the column tile) and the
  label array through two more, so the windows' arrays are not distinct: each array's full share is split in two halves
  at the region's entry, one per window on it, and joined again at its exit; the output array is held whole. After the
  region the host sums the accumulated rows and divides by the number of pairs. From a body obligation over proof data
  with those shares, every weakly fair execution of @main terminates with the result at the host lines' value of the
  output array after the last write-back, and with the two argument arrays as they were.
-/
import proofs.«143206_j6339371729129_1_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines after the region: the sum of the accumulated rows over the element count. -/
def tailOf (o : (⟨S8x2048x1, .f32⟩ : BufTy).Contents (Elt F)) : (⟨S_, .f32⟩ : BufTy).Contents (Elt F) :=
  Host.divf (Host.reduceAdd o (constant S_ .f32 0x00000000#32) Gen.reducesTo_S8x2048x1_S_d0_1_2 Gen.h_S_) (constant S_ .f32 0x4C000000#32)

/-! ## The arrays at the region's entry: each shared array's full share in two halves -/

/-- The buffers behind the windows' arrays, one by one: the prediction array, the label array, the accumulated rows. -/
private theorem arrBufs0_eq (c : Dev nD) (Vc : (b : Ref sig .tc) → Buf (Elt F) ((c.tc : Thread nD τ).loc b)) :
    (Pipeline.arrBufs (Ix := Unit) (Name := ℕ) (U := UR sig nD τ) (Lvl := ℕ) spec0 c Vc : sProp 𝕄)
      = iprop((((c.tc : Thread nD τ).loc main_arg0) ↦{fullShare} Vc main_arg0) ∗ (((c.tc : Thread nD τ).loc main_arg1) ↦{fullShare} Vc main_arg1)
          ∗ (((c.tc : Thread nD τ).loc main_v0) ↦{fullShare} Vc main_v0)) := by
  unfold Pipeline.arrBufs
  exact bigSep_eq_bigSepL_of_eq [main_arg0, main_arg1, main_v0] (by decide) (by decide) _

/-- At the region's entry the three buffers held whole make the five windows' arrays: the prediction array's full share
    is the left half (window 0) and the right half (window 1), the label array's likewise (windows 2 and 3), and the
    accumulated rows stay whole (window 4); an array at entry holds the region-entry contents. -/
private theorem split0 (c : Dev nD) (dat : Dat τ (Elt F) Unit ℕ (UR sig nD τ) ℕ cfg0 c)
    (hq0 : dat.q 0 = fullShare.left) (hq1 : dat.q 1 = fullShare.right)
    (hq2 : dat.q 2 = fullShare.left) (hq3 : dat.q 3 = fullShare.right)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  have hs0 : dat.share 0 = fullShare.left := (if_neg (by decide)).trans hq0
  have hs1 : dat.share 1 = fullShare.right := (if_neg (by decide)).trans hq1
  have hs2 : dat.share 2 = fullShare.left := (if_neg (by decide)).trans hq2
  have hs3 : dat.share 3 = fullShare.right := (if_neg (by decide)).trans hq3
  have hs4 : dat.share 4 = fullShare := if_pos (by decide)
  rw [arrBufs0_eq]
  unfold Dat.arrays
  rw [bigSep_W0]
  simp only [Dat.arrAt]
  rw [(arr_whole0 0).set_eq_univ, (arr_whole0 2).set_eq_univ, (arr_whole0 4).set_eq_univ,
    hs0, hs1, hs2, hs3, hs4, hA 0, hA 1, hA 2, hA 3, hA 4]
  iintro ⟨H0, H1, H4⟩
  ihave H0 := (pointsTo_share (PosShare.mem_left_op_right fullShare)).1 $$ H0
  ihave H1 := (pointsTo_share (PosShare.mem_left_op_right fullShare)).1 $$ H1
  icases H0 with ⟨H0l, H0r⟩
  icases H1 with ⟨H1l, H1r⟩
  isplitl [H0l]; · iexact H0l
  isplitl [H0r]; · iexact H0r
  isplitl [H1l]; · iexact H1l
  isplitl [H1r]; · iexact H1r
  iexact H4

/-! ## The host lines after the region -/

/-- The references the host lines touch: the accumulated rows, the two constants, the sum and the quotient. -/
private abbrev T5 : Finset (Ref sig .tc) := {main_v0, main_cst, main_v1, main_cst_0, main_v2}
/-- The same as buffers of the device. -/
private abbrev S5 : Finset (DevRef τ sig) := T5.map ⟨Proc.devRef (sig := sig) (.tc : Proc τ), Proc.devRef_injective _⟩

/-- A listed reference is among them. -/
private theorem mem_S5 {r : Ref sig .tc} (h : r ∈ T5) : Proc.devRef (τ := τ) .tc r ∈ S5 := Finset.mem_map_of_mem _ h

/-- Those buffers held whole at a valuation, one by one. -/
private theorem held_S5 (c : Dev nD) (W : Valuation τ sig (Elt F)) :
    (StableHlo.held (c.tc : Thread nD τ) S5 W : sProp 𝕄)
      = iprop((((c.tc : Thread nD τ).loc main_v0) ↦{fullShare} W (Proc.devRef .tc main_v0))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_cst_0) ↦{fullShare} W (Proc.devRef .tc main_cst_0))
          ∗ (((c.tc : Thread nD τ).loc main_v2) ↦{fullShare} W (Proc.devRef .tc main_v2))) := by
  unfold StableHlo.held
  rw [bigSep_map, bigSep_eq_bigSepL_of_eq [main_v0, main_cst, main_v1, main_cst_0, main_v2] (by decide) (by decide)]
  rfl

/-- Every host line stays within those buffers. -/
private theorem hostOps1_sub5 : ∀ ops ∈ [(hostOps1 : List (HloOp τ sig (Elt F)))], ∀ op ∈ ops, op.bufs ⊆ S5 := by
  intro ops ho op h
  rw [List.mem_singleton] at ho; subst ho
  have hall : (hostOps1 : List (HloOp τ sig (Elt F))).Forall fun op => op.bufs ⊆ S5 := by
    refine ⟨?_, ?_, ?_, ?_⟩
    · show (StableHlo.nullary _ _ _).bufs ⊆ S5
      rw [StableHlo.nullary_bufs]; exact Finset.singleton_subset_iff.mpr (mem_S5 (by decide))
    · show (StableHlo.binary _ _ _ _ _ _ _).bufs ⊆ S5
      rw [StableHlo.binary_bufs]
      exact Finset.insert_subset (mem_S5 (by decide)) (Finset.insert_subset (mem_S5 (by decide)) (Finset.singleton_subset_iff.mpr (mem_S5 (by decide))))
    · show (StableHlo.nullary _ _ _).bufs ⊆ S5
      rw [StableHlo.nullary_bufs]; exact Finset.singleton_subset_iff.mpr (mem_S5 (by decide))
    · show (StableHlo.binary _ _ _ _ _ _ _).bufs ⊆ S5
      rw [StableHlo.binary_bufs]
      exact Finset.insert_subset (mem_S5 (by decide)) (Finset.insert_subset (mem_S5 (by decide)) (Finset.singleton_subset_iff.mpr (mem_S5 (by decide))))
  exact List.forall_iff_forall_mem.mp hall op h

/-- No host line allocates. -/
private theorem hostOps1_fresh5 : ∀ ops ∈ [(hostOps1 : List (HloOp τ sig (Elt F)))], ∀ op ∈ ops, op.fresh = ∅ := by
  intro ops ho op h
  rw [List.mem_singleton] at ho; subst ho
  exact List.forall_iff_forall_mem.mp hostOps1_fresh op h

/-- The quotient after the lines is the host lines' value of the accumulated rows. -/
private theorem after_v2 (W : Valuation τ sig (Elt F)) :
    StableHlo.after hostOps1 W (Proc.devRef .tc main_v2) = tailOf (W (Proc.devRef .tc main_v0)) := by
  unfold tailOf
  after_results

/-- The lines do not write the accumulated rows. -/
private theorem after_v0 (W : Valuation τ sig (Elt F)) :
    StableHlo.after hostOps1 W (Proc.devRef .tc main_v0) = W (Proc.devRef .tc main_v0) := by
  after_results

/-- From the region's exit the four host lines run within the accumulated rows (held whole through window 4) and the
    four buffers that bypass the region, the input windows' half shares framed aside; they leave the rows as they were
    and the quotient at the host lines' value of the rows. -/
private theorem tail0 (c : Dev nD) (dat : Dat τ (Elt F) Unit ℕ (UR sig nD τ) ℕ cfg0 c) (Q' : PUnit → sProp 𝕄) :
    iprop((iprop(dat.arrays (dat.arrAt · cfg0.N)
              ∗ (((c.tc : Thread nD τ).loc main_v2) ↦{fullShare} tailOf (dat.arrAt 4 cfg0.N) : sProp 𝕄)) -∗ Q' ⟨⟩)
        ∗ boundary (c.tc : Thread nD τ) ∗ dat.arrays (dat.arrAt · cfg0.N)
        ∗ Pipeline.unscopedRest (Ix := Unit) (Name := ℕ) (U := UR sig nD τ) (Lvl := ℕ) spec0 c (V m c))
      ⊢ wp frame (wpE (Pipeline.defs pcfgs (defs₀ (F := F))) (Variants.lift Variants.none) (c.tc : Thread nD τ) none) Set.univ
          (Pipeline.chain [StableHlo.seq hostOps1]) Q' := by
  classical
  have hs4 : dat.share 4 = fullShare := if_pos (by decide)
  let W : Valuation τ sig (Elt F) := Function.update (V0 m c) (Proc.devRef .tc main_v0) (dat.arrAt 4 cfg0.N)
  have hWv0 : W (Proc.devRef .tc main_v0) = dat.arrAt 4 cfg0.N := Function.update_self _ _ _
  have hWne : ∀ r : Ref sig .tc, r ≠ main_v0 → W (Proc.devRef .tc r) = V m c r :=
    fun r h => Function.update_of_ne (StableHlo.devRef_ne_of_ne h) _ _
  have hpre : (iprop((((c.tc : Thread nD τ).loc main_v0) ↦{fullShare} dat.arrAt 4 cfg0.N)
        ∗ Pipeline.unscopedRest (Ix := Unit) (Name := ℕ) (U := UR sig nD τ) (Lvl := ℕ) spec0 c (V m c)) : sProp 𝕄)
      = StableHlo.held (c.tc : Thread nD τ) S5 W := by
    rw [held_S5, unscopedRest0_eq, hWv0, hWne main_cst (by decide), hWne main_v1 (by decide), hWne main_cst_0 (by decide), hWne main_v2 (by decide)]
  unfold Dat.arrays
  rw [bigSep_W0, (arr_whole0 4).set_eq_univ, hs4]
  have hpost : (StableHlo.held (c.tc : Thread nD τ) S5 (StableHlo.after (List.flatten [hostOps1]) W) : sProp 𝕄)
      = iprop((((c.tc : Thread nD τ).loc main_v0) ↦{fullShare} dat.arrAt 4 cfg0.N)
          ∗ (((c.tc : Thread nD τ).loc main_cst) ↦{fullShare} StableHlo.after hostOps1 W (Proc.devRef .tc main_cst))
          ∗ (((c.tc : Thread nD τ).loc main_v1) ↦{fullShare} StableHlo.after hostOps1 W (Proc.devRef .tc main_v1))
          ∗ (((c.tc : Thread nD τ).loc main_cst_0) ↦{fullShare} StableHlo.after hostOps1 W (Proc.devRef .tc main_cst_0))
          ∗ (((c.tc : Thread nD τ).loc main_v2) ↦{fullShare} tailOf (dat.arrAt 4 cfg0.N))) := by
    rw [show List.flatten [(hostOps1 : List (HloOp τ sig (Elt F)))] = hostOps1 from by simp only [List.flatten_cons, List.flatten_nil, List.append_nil],
      held_S5, after_v0, after_v2, hWv0]
  show _ ⊢ wp frame _ Set.univ (Pipeline.chain (([hostOps1] : List (List (HloOp τ sig (Elt F)))).map StableHlo.seq ++ [])) Q'
  iintro ⟨Hk, Hb, ⟨H0, H1, H2, H3, H4⟩, HZ⟩
  ihave HS := (Entails.of_eq hpre) $$ [H4 HZ]
  · isplitl [H4]; · iexact H4
    iexact HZ
  iapply (Pipeline.wp_seqs_then pcfgs defs₀ Variants.none c S5 [] [hostOps1] hostOps1_sub5 hostOps1_fresh5 W) $$ [Hb HS]
  · isplitl [Hb]; · iexact Hb
    iexact HS
  iintro Hb
  rw [Pipeline.chain_nil, wp_pure, hpost]
  imodintro
  iapply Hk
  icases Hb with ⟨-, H4, -, -, -, Hv2⟩
  isplitr [Hv2]
  · isplitl [H0]; · iexact H0
    isplitl [H1]; · iexact H1
    isplitl [H2]; · iexact H2
    isplitl [H3]; · iexact H3
    iexact H4
  · iexact Hv2

/-- THE RUN, for any proof data over the region-entry arrays that holds the prediction array at the two halves of the
    full share through windows 0 and 1 and the label array likewise through windows 2 and 3, owes nothing, and whose
    invariant starts and ends at the launch's. -/
theorem run_main
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare.left) (hq3 : ∀ c, (dats 0 c).q 3 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v2) = tailOf ((dats 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  unfold defs
  exact Pipeline.θ_run_region_pf_tail (fun p => (cfgs p).toPCfg) (fun p => (cfgs p).toPCfg_adm) dats () cellOf_inj 0 winFacts₀0
    (Pipeline.OwnSemFacts.none spec0) (Pipeline.PreFacts.none _)
    emb₁ defs₀ Variants.none m ρ main (fun _ => Pipeline.chain [StableHlo.seq hostOps1]) hbody
    block_pos0 arr_whole0 stage_whole0 howed
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => split0 m c (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => (((c.tc : Thread nD τ).loc main_v2) ↦{fullShare} tailOf ((dats 0 c).arrAt 4 cfg0.N) : sProp 𝕄))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail0 m c (dats 0 c) Q')
    (QY := fun c s => s.mem ((c.tc : Thread nD τ).loc main_v2) = tailOf ((dats 0 c).arrAt 4 cfg0.N))
    (hY := fun c s' => by
      iintro ⟨-, HU, HSI⟩
      imodintro
      icombine HSI HU gives %h
      isplitr
      · ipureintro; exact Buf.eq_of_forall_mem_univ h
      · iexact HSI)
    (hQ := fun s h c => ⟨(h c).2.2, by
      have h0 := (h c).1 0
      rw [Pipeline.Dat.arrAt_in _ 0 rfl, hA] at h0
      exact h0, by
      have h2 := (h c).1 2
      rw [Pipeline.Dat.arrAt_in _ 2 rfl, hA] at h2
      exact h2⟩)

end Cert.KernelIdeal.Hand

end
-- ==== Proof.KI.Run.lean ====
/-
  The kernel program's run: the launch applied to the proof data and its body obligation.
-/
import proofs.«143206_j6339371729129_1_alg».proof.Proof.KI.Body
import proofs.«143206_j6339371729129_1_alg».proof.Proof.KI.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v2) = tailOf ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (dats m) (fun c => (body_obligation m c).loose) (q0 m) (q1 m) (q2 m) (q3 m) (fun _ _ => rfl) (A_eq m) (hin m) (hout m)

/-- The frame: every weakly fair execution terminates, nothing faults, and the argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.Hand

end
-- ==== Proof.Spec.lean ====
/-
  The mathematics both programs compute, stated once over the extended reals with no program in sight.
  For a batch n and rows l, m of the prediction array x the pairwise loss is

      d2   = max (|x_l|^2 + |x_m|^2 - 2 <x_l, x_m>) 0
      dist = sqrt d2 where d2 > 0, else 0
      loss = 0.1 * y * d2 + 0.3 * (1 - y) * max (2 - dist) 0 ^ 2      (y = 1 where the labels of l and m agree, else 0)

  in exactly this association of the products (no law of the extended reals is used to reach it), and the result is the
  sum of the loss over all (n, l, m) divided by their number 2^25. The float literals stay the patterns both programs
  print; the only regrouping is of the SUM: rows first, then the eight column tiles of 256 columns — addition on the
  extended reals is commutative and associative, so this needs no finiteness.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨3, ![8, 2048, 512]⟩
abbrev SLab : Shape := ⟨2, ![8, 2048]⟩
abbrev SPair : Shape := ⟨3, ![8, 2048, 2048]⟩
abbrev SRow : Shape := ⟨3, ![8, 2048, 1]⟩
abbrev S0 : Shape := ⟨0, ![]⟩

abbrev zero : EReal := Ideal.ofBits .f32 0x00000000#32
abbrev one : EReal := Ideal.ofBits .f32 0x3F800000#32
abbrev two : EReal := Ideal.ofBits .f32 0x40000000#32
abbrev tenth : EReal := Ideal.ofBits .f32 0x3DCCCCCD#32
abbrev threeTenths : EReal := Ideal.ofBits .f32 0x3E99999A#32
abbrev count : EReal := Ideal.ofBits .f32 0x4C000000#32

/-- 1 where two labels agree, else 0. -/
def lab (a b : BitVec 32) : EReal := if a = b then 1 else 0

/-- The loss of one pair from its two squared norms, its inner product and its two labels. -/
def lossS (sa sb inn : EReal) (la lb : BitVec 32) : EReal :=
  let d2 := max (sa + sb - two * inn) zero
  let p : BitVec 1 := Ideal.cmp .ogt d2 zero
  let dist := Scalar.select p (Ideal.sqrt (Scalar.select p d2 one)) zero
  let h := max (two - dist) zero
  tenth * lab la lb * d2 + threeTenths * (one - lab la lb) * h * h

/-- The squared norm of row (n, l). -/
def rowsq (x : SX.Idx → EReal) (n : Fin 8) (l : Fin 2048) : EReal := ∑ d : Fin 512, x (ix3 n l d) * x (ix3 n l d)
/-- The inner product of rows (n, l) and (n, m). -/
def inner (x : SX.Idx → EReal) (n : Fin 8) (l m : Fin 2048) : EReal := ∑ d : Fin 512, x (ix3 n l d) * x (ix3 n m d)
/-- The loss of the pair (l, m) of batch n. -/
def pair (x : SX.Idx → EReal) (s : SLab.Idx → BitVec 32) (n : Fin 8) (l m : Fin 2048) : EReal :=
  lossS (rowsq x n l) (rowsq x n m) (inner x n l m) (s (ix2 n l)) (s (ix2 n m))

/-- Column mm of column tile ki. -/
def tileCol (ki : Fin 8) (mm : Fin 256) : Fin 2048 := ⟨ki.val * 256 + mm.val, by omega⟩
/-- Row r of row tile qi. -/
def tileRow (qi : Fin 8) (r : Fin 256) : Fin 2048 := ⟨qi.val * 256 + r.val, by omega⟩

/-- The loss summed over the columns of row (n, l), column tile by column tile. -/
def rowTot (x : SX.Idx → EReal) (s : SLab.Idx → BitVec 32) (j : SRow.Idx) : EReal :=
  ∑ ki : Fin 8, ∑ mm : Fin 256, pair x s (j 0) (j 1) (tileCol ki mm)

/-- The result: the sum over all pairs divided by their number. -/
def mean (x : SX.Idx → EReal) (s : SLab.Idx → BitVec 32) : S0.Idx → EReal :=
  fun _ => Ideal.div (∑ i : SPair.Idx, pair x s (i 0) (i 1) (i 2)) count

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The eight column tiles of 256 columns are the 2048 columns: column c is column c mod 256 of tile c div 256. -/
private def tileEquiv : Fin 8 × Fin 256 ≃ Fin 2048 where
  toFun p := tileCol p.1 p.2
  invFun c := (⟨c.val / 256, by have := c.isLt; omega⟩, ⟨c.val % 256, by omega⟩)
  left_inv p := by
    rcases p with ⟨⟨a, ha⟩, ⟨b, hb⟩⟩
    simp only [tileCol, Prod.mk.injEq, Fin.mk.injEq]
    constructor <;> omega
  right_inv c := by
    rcases c with ⟨c, hc⟩
    simp only [tileCol, Fin.mk.injEq]
    omega

/-- Summing tile by tile, and within a tile column by column, is summing over all columns. -/
private theorem sum_tiles {M : Type*} [AddCommMonoid M] (g : Fin 2048 → M) :
    ∑ ki : Fin 8, ∑ mm : Fin 256, g (tileCol ki mm) = ∑ c : Fin 2048, g c := by
  rw [← Equiv.sum_comp tileEquiv g, Fintype.sum_prod_type]
  rfl

/-- Summing row by row, and within a row tile by tile, is summing over all pairs. -/
theorem sum_rowTot (x : SX.Idx → EReal) (s : SLab.Idx → BitVec 32) :
    ∑ j : SRow.Idx, rowTot x s j = ∑ i : SPair.Idx, pair x s (i 0) (i 1) (i 2) := by
  -- both sides by coordinates: the row index set has a last axis of size one, the pair index set the 2048 columns
  rw [sum_idx3, sum_idx3]
  refine Finset.sum_congr rfl fun a _ => Finset.sum_congr rfl fun b _ => ?_
  rw [Fin.sum_univ_one]
  exact sum_tiles fun c => pair x s a b c

end Cert.Spec

end
-- ==== Proof.Payload.lean ====
/-
  One grid point's update of the row accumulator, read at an index over the extended reals: entry (n, r) of the
  updated accumulator is its old entry plus the sum over the 256 columns of the column tile of the pairwise loss
  (Spec.lossS) of row r of the row tile against column mm of the column tile: their squared norms are lane sums of
  squares, their inner product one entry of the batched matrix product into a zero accumulator, the label indicator
  the widened comparison converted to a float. The zero block is zero at every index.
-/
import proofs.«143206_j6339371729129_1_alg».proof.Proof.KI.Kit
import proofs.«143206_j6339371729129_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-! ## Keep-dimension layout operations of rank two and three, read at coordinates -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

end Layout

/-! ## The lane sums -/

/-- The sum over the last axis of an `[8, 256, 512]` vector, at `(n, r)`: the sum over the 512 lanes. -/
theorem laneSum512_apply (v : FVec Ideal S8x256x512 .f32) (h : S8x256x512.Reduces [2] S8x256) (hφ : FKind.Formats .f32)
    (hacc : (0x00000000#32 : BitVec 32) = FKind.add.neutral .f32 hφ) (n : Fin 8) (r : Fin 256) :
    multiReduction (F := Ideal) .add [2] S8x256 v 0x00000000#32 h hφ hacc (ix2 n r) = ∑ d : Fin 512, v (ix3 n r d) := by
  refine (Ideal.multiReduction_add_single v 0x00000000#32 h hφ hacc (ix2 n r)).trans ?_
  refine Finset.sum_congr rfl fun d _ => congrArg v (funext fun a => Fin.ext ?_)
  match a with
  | ⟨0, _⟩ => rfl
  | ⟨1, _⟩ => rfl
  | ⟨2, _⟩ => rfl

/-- The sum over the last axis of an `[8, 256, 256]` vector, at `(n, r)`: the sum over the 256 lanes. -/
theorem laneSum256_apply (v : FVec Ideal S8x256x256 .f32) (h : S8x256x256.Reduces [2] S8x256) (hφ : FKind.Formats .f32)
    (hacc : (0x00000000#32 : BitVec 32) = FKind.add.neutral .f32 hφ) (n : Fin 8) (r : Fin 256) :
    multiReduction (F := Ideal) .add [2] S8x256 v 0x00000000#32 h hφ hacc (ix2 n r) = ∑ mm : Fin 256, v (ix3 n r mm) := by
  refine (Ideal.multiReduction_add_single v 0x00000000#32 h hφ hacc (ix2 n r)).trans ?_
  refine Finset.sum_congr rfl fun d _ => congrArg v (funext fun a => Fin.ext ?_)
  match a with
  | ⟨0, _⟩ => rfl
  | ⟨1, _⟩ => rfl
  | ⟨2, _⟩ => rfl

/-! ## The batched matrix product -/

/-- The left operand's index for output index `i` and contraction index `q`: the batch coordinate of `i` on axis 0, -/
theorem lhs_dot_0 (i : S8x256x256.Idx) (q : dot_S8x256x512_S8x256x512_S8x256x256_2_2_1_1_0_0.contr.Idx) :
    (dot_S8x256x512_S8x256x512_S8x256x256_2_2_1_1_0_0.lhsIdx i q 0).val = (i 0).val := by
  unfold DotDims.lhsIdx
  rw [dif_pos (show (0 : Fin S8x256x512.rank) ∈ dot_S8x256x512_S8x256x512_S8x256x256_2_2_1_1_0_0.lhsBatch by decide)]
  rfl
/-- the row coordinate of `i` on axis 1, -/
theorem lhs_dot_1 (i : S8x256x256.Idx) (q : dot_S8x256x512_S8x256x512_S8x256x256_2_2_1_1_0_0.contr.Idx) :
    (dot_S8x256x512_S8x256x512_S8x256x256_2_2_1_1_0_0.lhsIdx i q 1).val = (i 1).val := by
  unfold DotDims.lhsIdx
  rw [dif_neg (show ¬(1 : Fin S8x256x512.rank) ∈ dot_S8x256x512_S8x256x512_S8x256x256_2_2_1_1_0_0.lhsBatch by decide), dif_pos (show (1 : Fin S8x256x512.rank) ∈ dot_S8x256x512_S8x256x512_S8x256x256_2_2_1_1_0_0.lhsNonContracting by decide)]
  rfl
/-- and the contraction coordinate on axis 2. -/
theorem lhs_dot_2 (i : S8x256x256.Idx) (q : dot_S8x256x512_S8x256x512_S8x256x256_2_2_1_1_0_0.contr.Idx) :
    (dot_S8x256x512_S8x256x512_S8x256x256_2_2_1_1_0_0.lhsIdx i q 2).val = (q ⟨0, by decide⟩).val :=
  dot_S8x256x512_S8x256x512_S8x256x256_2_2_1_1_0_0.lhsIdx_val_of_single rfl i q
/-- The right operand's index likewise: the batch coordinate of `i` on axis 0, -/
theorem rhs_dot_0 (i : S8x256x256.Idx) (q : dot_S8x256x512_S8x256x512_S8x256x256_2_2_1_1_0_0.contr.Idx) :
    (dot_S8x256x512_S8x256x512_S8x256x256_2_2_1_1_0_0.rhsIdx i q 0).val = (i 0).val := by
  unfold DotDims.rhsIdx
  rw [dif_pos (show (0 : Fin S8x256x512.rank) ∈ dot_S8x256x512_S8x256x512_S8x256x256_2_2_1_1_0_0.rhsBatch by decide)]
  rfl
/-- the column coordinate of `i` (its axis 2) on axis 1, -/
theorem rhs_dot_1 (i : S8x256x256.Idx) (q : dot_S8x256x512_S8x256x512_S8x256x256_2_2_1_1_0_0.contr.Idx) :
    (dot_S8x256x512_S8x256x512_S8x256x256_2_2_1_1_0_0.rhsIdx i q 1).val = (i 2).val := by
  unfold DotDims.rhsIdx
  rw [dif_neg (show ¬(1 : Fin S8x256x512.rank) ∈ dot_S8x256x512_S8x256x512_S8x256x256_2_2_1_1_0_0.rhsBatch by decide), dif_pos (show (1 : Fin S8x256x512.rank) ∈ dot_S8x256x512_S8x256x512_S8x256x256_2_2_1_1_0_0.rhsNonContracting by decide)]
  rfl
/-- and the contraction coordinate on axis 2. -/
theorem rhs_dot_2 (i : S8x256x256.Idx) (q : dot_S8x256x512_S8x256x512_S8x256x256_2_2_1_1_0_0.contr.Idx) :
    (dot_S8x256x512_S8x256x512_S8x256x256_2_2_1_1_0_0.rhsIdx i q 2).val = (q ⟨0, by decide⟩).val :=
  dot_S8x256x512_S8x256x512_S8x256x256_2_2_1_1_0_0.rhsIdx_val_of_single rfl i q

/-- Entry `(n, r, mm)` of the batched product of the row tile with the column tile into a zero accumulator: the inner
    product of row `r` of the first with row `mm` of the second, in batch `n`. -/
theorem dot_apply (q k : FVec Ideal S8x256x512 .f32) (n : Fin 8) (r mm : Fin 256) :
    matmul dot_S8x256x512_S8x256x512_S8x256x256_2_2_1_1_0_0 (some .fp32) q k (constant (F := Ideal) S8x256x256 .f32 0x00000000#32) (ix3 n r mm)
      = ∑ d : Fin 512, q (ix3 n r d) * k (ix3 n mm d) := by
  simp only [matmul]
  rw [Ideal.matmul_constant_zero_apply, ← Equiv.sum_comp (ValueIdx.contrEquiv1 dot_S8x256x512_S8x256x512_S8x256x256_2_2_1_1_0_0 512 rfl rfl).symm]
  refine Finset.sum_congr rfl fun d _ => ?_
  have hk := ValueIdx.contrEquiv1_symm_val dot_S8x256x512_S8x256x512_S8x256x256_2_2_1_1_0_0 512 rfl rfl d
  have el : dot_S8x256x512_S8x256x512_S8x256x256_2_2_1_1_0_0.lhsIdx (ix3 n r mm) ((ValueIdx.contrEquiv1 dot_S8x256x512_S8x256x512_S8x256x256_2_2_1_1_0_0 512 rfl rfl).symm d) = ix3 n r d := funext fun a => Fin.ext (by
    match a with
    | ⟨0, _⟩ => exact lhs_dot_0 _ _
    | ⟨1, _⟩ => exact lhs_dot_1 _ _
    | ⟨2, _⟩ => exact (lhs_dot_2 _ _).trans hk)
  have er : dot_S8x256x512_S8x256x512_S8x256x256_2_2_1_1_0_0.rhsIdx (ix3 n r mm) ((ValueIdx.contrEquiv1 dot_S8x256x512_S8x256x512_S8x256x256_2_2_1_1_0_0 512 rfl rfl).symm d) = ix3 n mm d := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-! ## The payloads at an index -/

/-- The two squared norms broadcast against each other, less twice the inner product, clipped at zero. -/
theorem pay3_apply (q k : Vec Ideal S8x256x512 .f32) (n : Fin 8) (r mm : Fin 256) :
    k0_pay3 (F := Ideal) q k (ix3 n r mm)
      = max ((∑ d : Fin 512, q (ix3 n r d) * q (ix3 n r d)) + (∑ d : Fin 512, k (ix3 n mm d) * k (ix3 n mm d))
          - Cert.Spec.two * ∑ d : Fin 512, q (ix3 n r d) * k (ix3 n mm d)) Cert.Spec.zero := by
  have hq : broadcastTo S8x256x256 (shapeCast S8x256x1 (multiReduction (F := Ideal) .add [2] S8x256 (mulf q q) 0x00000000#32
        reduces_S8x256x512_S8x256 (.inl rfl) rfl) shapeCasts_S8x256_S8x256x1) broadcasts_S8x256x1_S8x256x256 (ix3 n r mm)
      = ∑ d : Fin 512, q (ix3 n r d) * q (ix3 n r d) :=
    (broadcastTo_ab1_abc_apply _ _ n r mm).trans ((shapeCast_ab_ab1_apply _ _ n r 0).trans (laneSum512_apply _ _ _ _ n r))
  have hk : broadcastTo S8x256x256 (shapeCast S8x1x256 (multiReduction (F := Ideal) .add [2] S8x256 (mulf k k) 0x00000000#32
        reduces_S8x256x512_S8x256 (.inl rfl) rfl) shapeCasts_S8x256_S8x1x256) broadcasts_S8x1x256_S8x256x256 (ix3 n r mm)
      = ∑ d : Fin 512, k (ix3 n mm d) * k (ix3 n mm d) :=
    (broadcastTo_a1c_abc_apply _ _ n r mm).trans ((shapeCast_ab_a1b_apply _ _ n 0 mm).trans (laneSum512_apply _ _ _ _ n mm))
  exact congrArg₂ max (congrArg₂ (· - ·) (congrArg₂ (· + ·) hq hk) (congrArg (Cert.Spec.two * ·) (dot_apply q k n r mm))) rfl

/-- The distance: the square root where the clipped squared distance is positive, else zero. -/
theorem pay4_apply (q k : Vec Ideal S8x256x512 .f32) (i : S8x256x256.Idx) :
    k0_pay4 (F := Ideal) q k i
      = Scalar.select (Ideal.cmp .ogt (k0_pay3 (F := Ideal) q k i) Cert.Spec.zero)
          (Ideal.sqrt (Scalar.select (Ideal.cmp .ogt (k0_pay3 (F := Ideal) q k i) Cert.Spec.zero) (k0_pay3 (F := Ideal) q k i) Cert.Spec.one))
          Cert.Spec.zero := rfl

/-- The widened comparison of two label words, converted to a float, is the indicator that they agree. -/
theorem lab_word (a b : BitVec 32) :
    FloatOps.sitofp (F := Ideal) .f32 ((IntOp.cmpi .eq a b).setWidth 32) = Cert.Spec.lab a b := by
  show (((((IntOp.cmpi .eq a b).setWidth 32).toInt : ℤ) : ℝ) : EReal) = _
  unfold Cert.Spec.lab
  by_cases h : a = b
  · have e : IntOp.cmpi .eq a b = 1#1 := by simp [IntOp.cmpi, h]
    have e1 : ((1#1 : BitVec 1).setWidth 32).toInt = 1 := by decide
    rw [e, if_pos h, e1, Int.cast_one, EReal.coe_one]
  · have e : IntOp.cmpi .eq a b = 0#1 := by
      show BitVec.ofBool (a == b) = 0#1
      rw [beq_eq_false_iff_ne.mpr h]; rfl
    have e0 : ((0#1 : BitVec 1).setWidth 32).toInt = 0 := by decide
    rw [e, if_neg h, e0, Int.cast_zero, EReal.coe_zero]

/-- The label indicator of row `r` of the row tile against column `mm` of the column tile. -/
theorem pay5_apply (sq sk : Vec Ideal S8x256 .i32) (n : Fin 8) (r mm : Fin 256) :
    k0_pay5 (F := Ideal) sq sk (ix3 n r mm) = Cert.Spec.lab (sq (ix2 n r)) (sk (ix2 n mm)) := by
  have hq : broadcastTo S8x256x256 (shapeCast S8x256x1 sq shapeCasts_S8x256_S8x256x1) broadcasts_S8x256x1_S8x256x256 (ix3 n r mm)
      = sq (ix2 n r) :=
    (broadcastTo_ab1_abc_apply _ _ n r mm).trans (shapeCast_ab_ab1_apply _ _ n r 0)
  have hk : broadcastTo S8x256x256 (shapeCast S8x1x256 sk shapeCasts_S8x256_S8x1x256) broadcasts_S8x1x256_S8x256x256 (ix3 n r mm)
      = sk (ix2 n mm) :=
    (broadcastTo_a1c_abc_apply _ _ n r mm).trans (shapeCast_ab_a1b_apply _ _ n 0 mm)
  refine Eq.trans ?_ (lab_word _ _)
  exact congrArg₂ (fun a b : BitVec 32 => FloatOps.sitofp (F := Ideal) .f32 ((IntOp.cmpi .eq a b).setWidth 32)) hq hk

/-- The accumulator's update from the three arrays of pairwise values: its entry plus the lane sum of the loss. -/
theorem pay1_apply (v19 v26 v35 : FVec Ideal S8x256x256 .f32) (c : Ideal .f32) (acc : Vec Ideal S8x256x1 .f32)
    (n : Fin 8) (r : Fin 256) :
    k0_pay1 (F := Ideal) v19 v26 v35 c acc (ix3 n r 0)
      = acc (ix3 n r 0) + ∑ mm : Fin 256,
          (Cert.Spec.tenth * v35 (ix3 n r mm) * v19 (ix3 n r mm)
            + Cert.Spec.threeTenths * (Cert.Spec.one - v35 (ix3 n r mm)) * max (c - v26 (ix3 n r mm)) Cert.Spec.zero
                * max (c - v26 (ix3 n r mm)) Cert.Spec.zero) := by
  unfold k0_pay1
  refine (congrFun (shapeCast_self _ _) _).trans ?_
  refine (addf_apply _ _ _).trans ?_
  refine congrArg (acc (ix3 n r 0) + ·) ?_
  refine (shapeCast_ab_ab1_apply _ _ n r 0).trans ?_
  exact laneSum256_apply _ _ _ _ n r

/-- The reset value of the accumulator is zero at every index. -/
theorem zero_block_apply (j : S8x256x1.Idx) : (k0_pay2 (F := Ideal)) j = 0 := by
  unfold k0_pay2
  refine (congrFun (shapeCast_self _ _) j).trans ?_
  exact Ideal.ofBits_zero_f32

/-- The update at row (n, r). -/
theorem step_apply (q k : Vec Ideal S8x256x512 .f32) (sq sk : Vec Ideal S8x256 .i32) (acc : Vec Ideal S8x256x1 .f32)
    (n : Fin 8) (r : Fin 256) :
    step (F := Ideal) q k sq sk acc (ix3 n r 0)
      = acc (ix3 n r 0) + ∑ mm : Fin 256,
          Cert.Spec.lossS (∑ d : Fin 512, q (ix3 n r d) * q (ix3 n r d)) (∑ d : Fin 512, k (ix3 n mm d) * k (ix3 n mm d))
            (∑ d : Fin 512, q (ix3 n r d) * k (ix3 n mm d)) (sq (ix2 n r)) (sk (ix2 n mm)) := by
  unfold step
  refine (pay1_apply _ _ _ _ acc n r).trans ?_
  refine congrArg (acc (ix3 n r 0) + ·) (Finset.sum_congr rfl fun mm _ => ?_)
  rw [pay5_apply, pay4_apply, pay3_apply]
  rfl

end Cert.KernelIdeal.Hand

end
-- ==== Proof.KI.Fold.lean ====
/-
  The row accumulator after the last column tile of a row of tiles, over the extended reals. Point t = 8 qi + ki
  stages rows 256 qi .. 256 qi + 255 of the prediction and label arrays through the row-tile windows and rows
  256 ki .. 256 ki + 255 through the column-tile windows; the fold of the one-point update from the reset at ki = 0
  therefore holds, after tile ki, the loss of each row of the row tile summed over the columns of tiles 0 .. ki, and
  after ki = 7 over all 2048 columns.
-/
import proofs.«143206_j6339371729129_1_alg».proof.Proof.KI.Data
import proofs.«143206_j6339371729129_1_alg».proof.Proof.Payload

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The block indices of the four input windows at a point, decided once over the 64 points: the row-tile windows sit
    at block (0, t / 8[, 0]), the column-tile windows at block (0, t % 8[, 0]). -/
theorem inwin_index_facts : ∀ t : Fin cfg0.N,
    win0_0.index t (0 : Fin 3) = 0 ∧ win0_0.index t (1 : Fin 3) = t.val / 8 ∧ win0_0.index t (2 : Fin 3) = 0
  ∧ win0_1.index t (0 : Fin 3) = 0 ∧ win0_1.index t (1 : Fin 3) = t.val % 8 ∧ win0_1.index t (2 : Fin 3) = 0
  ∧ win0_2.index t (0 : Fin 2) = 0 ∧ win0_2.index t (1 : Fin 2) = t.val / 8
  ∧ win0_3.index t (0 : Fin 2) = 0 ∧ win0_3.index t (1 : Fin 2) = t.val % 8 :=
  (by decide +kernel : ∀ t : Fin grid0.N, _)

/-! ## The four block reads at point 8 qi + ki -/

/-- The row tile of the prediction array: entry (n, r, d) of the block is entry (n, 256 qi + r, d) of the array. -/
theorem qblk_apply (c : Dev nD) (t : Fin cfg0.N) (qi ki : Fin 8) (ht : t.val = qi.val * 8 + ki.val)
    (n : Fin 8) (r : Fin 256) (d : Fin 512) :
    qblk m c t (ix3 n r d) = m ((c.tc : Thread nD τ).loc main_arg0) (ix3 n (Cert.Spec.tileRow qi r) d) := by
  obtain ⟨e0, e1, e2, -⟩ := inwin_index_facts t
  show V m c main_arg0 (((cfg0.win 0).blk t).view.emb (ix3 n r d)) = V m c main_arg0 (ix3 n (Cert.Spec.tileRow qi r) d)
  refine congrArg _ ?_
  funext a; apply Fin.ext
  match a with
  | ⟨0, _⟩ => show win0_0.index t (0 : Fin 3) * 8 + 1 * n.val = n.val; omega
  | ⟨1, _⟩ => show win0_0.index t (1 : Fin 3) * 256 + 1 * r.val = qi.val * 256 + r.val; have := qi.isLt; have := ki.isLt; omega
  | ⟨2, _⟩ => show win0_0.index t (2 : Fin 3) * 512 + 1 * d.val = d.val; omega

/-- The column tile of the prediction array: entry (n, mm, d) of the block is entry (n, 256 ki + mm, d) of the array. -/
theorem kblk_apply (c : Dev nD) (t : Fin cfg0.N) (qi ki : Fin 8) (ht : t.val = qi.val * 8 + ki.val)
    (n : Fin 8) (mm : Fin 256) (d : Fin 512) :
    kblk m c t (ix3 n mm d) = m ((c.tc : Thread nD τ).loc main_arg0) (ix3 n (Cert.Spec.tileCol ki mm) d) := by
  obtain ⟨-, -, -, e0, e1, e2, -⟩ := inwin_index_facts t
  show V m c main_arg0 (((cfg0.win 1).blk t).view.emb (ix3 n mm d)) = V m c main_arg0 (ix3 n (Cert.Spec.tileCol ki mm) d)
  refine congrArg _ ?_
  funext a; apply Fin.ext
  match a with
  | ⟨0, _⟩ => show win0_1.index t (0 : Fin 3) * 8 + 1 * n.val = n.val; omega
  | ⟨1, _⟩ => show win0_1.index t (1 : Fin 3) * 256 + 1 * mm.val = ki.val * 256 + mm.val; have := qi.isLt; have := ki.isLt; omega
  | ⟨2, _⟩ => show win0_1.index t (2 : Fin 3) * 512 + 1 * d.val = d.val; omega

/-- The row tile of the label array. -/
theorem sqblk_apply (c : Dev nD) (t : Fin cfg0.N) (qi ki : Fin 8) (ht : t.val = qi.val * 8 + ki.val)
    (n : Fin 8) (r : Fin 256) :
    sqblk m c t (ix2 n r) = m ((c.tc : Thread nD τ).loc main_arg1) (ix2 n (Cert.Spec.tileRow qi r)) := by
  obtain ⟨-, -, -, -, -, -, e0, e1, -⟩ := inwin_index_facts t
  show V m c main_arg1 (((cfg0.win 2).blk t).view.emb (ix2 n r)) = V m c main_arg1 (ix2 n (Cert.Spec.tileRow qi r))
  refine congrArg _ ?_
  funext a; apply Fin.ext
  match a with
  | ⟨0, _⟩ => show win0_2.index t (0 : Fin 2) * 8 + 1 * n.val = n.val; omega
  | ⟨1, _⟩ => show win0_2.index t (1 : Fin 2) * 256 + 1 * r.val = qi.val * 256 + r.val; have := qi.isLt; have := ki.isLt; omega

/-- The column tile of the label array. -/
theorem skblk_apply (c : Dev nD) (t : Fin cfg0.N) (qi ki : Fin 8) (ht : t.val = qi.val * 8 + ki.val)
    (n : Fin 8) (mm : Fin 256) :
    skblk m c t (ix2 n mm) = m ((c.tc : Thread nD τ).loc main_arg1) (ix2 n (Cert.Spec.tileCol ki mm)) := by
  obtain ⟨-, -, -, -, -, -, -, -, e0, e1⟩ := inwin_index_facts t
  show V m c main_arg1 (((cfg0.win 3).blk t).view.emb (ix2 n mm)) = V m c main_arg1 (ix2 n (Cert.Spec.tileCol ki mm))
  refine congrArg _ ?_
  funext a; apply Fin.ext
  match a with
  | ⟨0, _⟩ => show win0_3.index t (0 : Fin 2) * 8 + 1 * n.val = n.val; omega
  | ⟨1, _⟩ => show win0_3.index t (1 : Fin 2) * 256 + 1 * mm.val = ki.val * 256 + mm.val; have := qi.isLt; have := ki.isLt; omega

/-! ## One point's update at a row -/

/-- At point 8 qi + ki the update adds to entry (n, r) the loss of row 256 qi + r against the 256 columns of tile ki. -/
theorem step_point (c : Dev nD) (t : Fin cfg0.N) (qi ki : Fin 8) (ht : t.val = qi.val * 8 + ki.val)
    (acc : Vec Ideal S8x256x1 .f32) (n : Fin 8) (r : Fin 256) :
    step (F := Ideal) (qblk m c t) (kblk m c t) (sqblk m c t) (skblk m c t) acc (ix3 n r 0)
      = acc (ix3 n r 0) + ∑ mm : Fin 256,
          Cert.Spec.pair (m ((c.tc : Thread nD τ).loc main_arg0)) (m ((c.tc : Thread nD τ).loc main_arg1)) n
            (Cert.Spec.tileRow qi r) (Cert.Spec.tileCol ki mm) := by
  refine (step_apply (qblk m c t) (kblk m c t) (sqblk m c t) (skblk m c t) acc n r).trans ?_
  refine congrArg _ (Finset.sum_congr rfl fun mm _ => ?_)
  unfold Cert.Spec.pair Cert.Spec.rowsq Cert.Spec.inner
  simp only [qblk_apply m c t qi ki ht, kblk_apply m c t qi ki ht, sqblk_apply m c t qi ki ht, skblk_apply m c t qi ki ht]

/-! ## The fold over the column tiles of one row of tiles -/

/-- The loss of row l summed over the columns of column tile j (nothing past the eighth tile). -/
def tileTot (x : Cert.Spec.SX.Idx → EReal) (s : Cert.Spec.SLab.Idx → BitVec 32) (n : Fin 8) (l : Fin 2048) (j : ℕ) : EReal :=
  if hj : j < 8 then ∑ mm : Fin 256, Cert.Spec.pair x s n l (Cert.Spec.tileCol ⟨j, hj⟩ mm) else 0

/-- After tile ki of row tile qi the accumulator's entry (n, r) holds the loss of row 256 qi + r summed over the columns
    of tiles 0 .. ki: by induction on ki, from the reset at ki = 0. -/
theorem accV_run (c : Dev nD) (qi : Fin 8) (n : Fin 8) (r : Fin 256) :
    ∀ (ki : ℕ) (hk : ki < 8) (h : qi.val * 8 + ki < cfg0.N),
      accV m c (qi.val * 8 + ki) h (ix3 n r 0)
        = ∑ j ∈ Finset.range (ki + 1),
            tileTot (m ((c.tc : Thread nD τ).loc main_arg0)) (m ((c.tc : Thread nD τ).loc main_arg1)) n (Cert.Spec.tileRow qi r) j
  | 0, hk, h => by
    have hr := accV_reset m c ⟨qi.val * 8 + 0, h⟩ (by show (qi.val * 8 + 0) % 8 = 0; omega)
    have hp := step_point m c ⟨qi.val * 8 + 0, h⟩ qi ⟨0, hk⟩ rfl (k0_pay2 (F := Ideal)) n r
    rw [Finset.sum_range_one]
    refine (congrFun hr (ix3 n r 0)).trans (hp.trans ?_)
    rw [zero_block_apply, zero_add]
    unfold tileTot
    rw [dif_pos hk]
  | ki + 1, hk, h => by
    have hne : ¬ (qi.val * 8 + (ki + 1)) % 8 = 0 := by omega
    have ha := accV_acc m c ⟨qi.val * 8 + (ki + 1), h⟩ hne
    have hp := step_point m c ⟨qi.val * 8 + (ki + 1), h⟩ qi ⟨ki + 1, hk⟩ rfl
      (accV m c (qi.val * 8 + (ki + 1) - 1) (Nat.lt_of_le_of_lt (Nat.sub_le _ _) h)) n r
    have same : ∀ (u : ℕ) (hu : u < cfg0.N), u = qi.val * 8 + ki → accV m c u hu = accV m c (qi.val * 8 + ki) (Nat.lt_of_succ_lt h) :=
      fun u hu e => by subst e; rfl
    rw [Finset.sum_range_succ, ← accV_run c qi n r ki (Nat.lt_of_succ_lt hk) (Nat.lt_of_succ_lt h)]
    refine (congrFun ha (ix3 n r 0)).trans (hp.trans ?_)
    rw [same _ _ (by omega)]
    unfold tileTot
    rw [dif_pos hk]

/-- After the last column tile of row tile `qi` the accumulator's entry (n, r) is the row total of row 256 qi + r. -/
theorem accV_last (c : Dev nD) (qi : Fin 8) (n : Fin 8) (r : Fin 256) :
    accV m c (qi.val * 8 + 7) (by have : cfg0.N = 64 := N_0; have := qi.isLt; omega) (ix3 n r 0)
      = Cert.Spec.rowTot (m ((c.tc : Thread nD τ).loc main_arg0)) (m ((c.tc : Thread nD τ).loc main_arg1)) (ix3 n (Cert.Spec.tileRow qi r) 0) := by
  rw [accV_run m c qi n r 7 (by omega)]
  unfold Cert.Spec.rowTot
  rw [Finset.sum_range]
  refine Finset.sum_congr rfl fun ki _ => ?_
  unfold tileTot
  rw [dif_pos ki.isLt]

end Cert.KernelIdeal.Hand

end
-- ==== Proof.KI.Value.lean ====
/-
  The output array after the region: block qi of it is written back once, after the last column tile of row tile qi,
  with the accumulator as it then stands; the eight blocks cover the array, so entry (n, l) is the row total of row l.
-/
import proofs.«143206_j6339371729129_1_alg».proof.Proof.KI.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The row total as a function of the output array's index. -/
abbrev rowG (c : Dev nD) : S8x2048x1.Idx → EReal :=
  Cert.Spec.rowTot (m ((c.tc : Thread nD τ).loc main_arg0)) (m ((c.tc : Thread nD τ).loc main_arg1))

/-- The output window's block at point t is block (0, t / 8, 0) of the array. -/
theorem out_idx : ∀ t : Fin cfg0.N, win0_4.index t (0 : Fin 3) = 0 ∧ win0_4.index t (1 : Fin 3) = t.val / 8 ∧ win0_4.index t (2 : Fin 3) = 0 :=
  (by decide +kernel : ∀ t : Fin grid0.N, _)

/-- The last point of row tile qi is a point of the grid. -/
theorem last_lt (qi : Fin 8) : qi.val * 8 + 7 < cfg0.N := by
  have : cfg0.N = 64 := N_0
  have := qi.isLt
  omega

/-- The accumulator after the last column tile of row tile qi, read at a block index y, is the row total at any array
    index k with the same batch and with row 256 qi + (the block row of y). -/
theorem acc_read (c : Dev nD) (qi : Fin 8) (h : qi.val * 8 + 7 < cfg0.N) (y : S8x256x1.Idx) (k : S8x2048x1.Idx)
    (h0 : (k 0).val = (y 0).val) (h1 : (k 1).val = qi.val * 256 + (y 1).val) :
    accV m c (qi.val * 8 + 7) h y = rowG m c k := by
  have ey : y = ix3 (y 0) (y 1) (0 : Fin 1) :=
    (eq_ix3 y).trans (congrArg (ix3 (y 0) (y 1)) (Fin.ext (by have : (y 2).val < 1 := (y 2).isLt; show (y 2).val = 0; omega)))
  have ek : k = ix3 (y 0) (Cert.Spec.tileRow qi (y 1)) (0 : Fin 1) := by
    funext a
    apply Fin.ext
    match a with
    | ⟨0, _⟩ => exact h0
    | ⟨1, _⟩ => exact h1
    | ⟨2, _⟩ => have : (k 2).val < 1 := (k 2).isLt; show (k 2).val = 0; omega
  exact (congrArg (accV m c (qi.val * 8 + 7) h) ey).trans ((accV_last m c qi (y 0) (y 1)).trans (congrArg (rowG m c) ek.symm))

/-- What a write-back point writes is its block of the row totals. -/
theorem flushed_eq (c : Dev nD) (t : Fin cfg0.N) (hf : (cfg0.win 4).flush t = true) :
    (dats m 0 c).flushed 4 t = ((cfg0.win 4).blk t).view.read (Elt Ideal) (rowG m c) := by
  have hN : cfg0.N = 64 := N_0
  have h7 : t.val % 8 = 7 := (flush0_4 t).mp hf
  have hlt : t.val < 64 := hN ▸ t.isLt
  obtain ⟨qi, rfl⟩ : ∃ qi : Fin 8, t = ⟨qi.val * 8 + 7, last_lt qi⟩ :=
    ⟨⟨t.val / 8, by omega⟩, Fin.ext (by show t.val = t.val / 8 * 8 + 7; omega)⟩
  obtain ⟨e0, e1, e2⟩ := out_idx ⟨qi.val * 8 + 7, last_lt qi⟩
  show (cfg0.win 4).cut (grid0.coords _) ((dats m 0 c).after 4 _) = _
  rw [after0_4]
  funext j
  rw [View.read_apply]
  have e1' : win0_4.index ⟨qi.val * 8 + 7, last_lt qi⟩ (1 : Fin 3) = qi.val := by
    rw [e1]; show (qi.val * 8 + 7) / 8 = qi.val; omega
  refine acc_read m c qi (last_lt qi) ((cfg0.win 4).xinj (grid0.coords ⟨qi.val * 8 + 7, last_lt qi⟩) j)
    (((cfg0.win 4).blk ⟨qi.val * 8 + 7, last_lt qi⟩).view.emb j) ?_ ?_
  · show win0_4.index ⟨qi.val * 8 + 7, last_lt qi⟩ (0 : Fin 3) * 8 + 1 * (j 0).val = (j 0).val
    rw [e0]; omega
  · show win0_4.index ⟨qi.val * 8 + 7, last_lt qi⟩ (1 : Fin 3) * 256 + 1 * (j 1).val = qi.val * 256 + (j 1).val
    rw [e1']; omega

/-- An index of the array is in point t's block iff each coordinate is in the block's range on its axis. -/
theorem mem_blk (t : Fin cfg0.N) (i : S8x2048x1.Idx) :
    i ∈ ((cfg0.win 4).blk t).view.set ↔ ∀ a : Fin 3, win0_4.index t a * S8x256x1.size a ≤ (i a).val ∧ (i a).val < win0_4.index t a * S8x256x1.size a + S8x256x1.size a := by
  show i ∈ ((View.whole main_v0).slice (win0_4.rect t)).set ↔ _
  rw [View.set_slice_whole, Rect.mem_set_unit]
  exact Iff.rfl

/-- Row l of the array lies in the block written back at the last point of row tile l / 256. -/
theorem covered (i : S8x2048x1.Idx) :
    ∃ t : Fin cfg0.N, (cfg0.win 4).flush t = true ∧ i ∈ ((cfg0.win 4).blk t).view.set := by
  have hN : cfg0.N = 64 := N_0
  have hi0 : (i 0).val < 8 := (i 0).isLt
  have hi1 : (i 1).val < 2048 := (i 1).isLt
  have hi2 : (i 2).val < 1 := (i 2).isLt
  obtain ⟨t, ht⟩ : ∃ t : Fin cfg0.N, t.val = (i 1).val / 256 * 8 + 7 := ⟨⟨(i 1).val / 256 * 8 + 7, by omega⟩, rfl⟩
  obtain ⟨e0, e1, e2⟩ := out_idx t
  refine ⟨t, (flush0_4 t).mpr (by omega), ?_⟩
  rw [mem_blk]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 256 ≤ (i 1).val ∧ (i 1).val < win0_4.index t (1 : Fin 3) * 256 + 256; omega
  | ⟨2, _⟩ => show win0_4.index t (2 : Fin 3) * 1 ≤ (i 2).val ∧ (i 2).val < win0_4.index t (2 : Fin 3) * 1 + 1; omega

/-- The output array after the last write-back, entry by entry. -/
theorem out_value (c : Dev nD) :
    ((dats m 0 c).arrAt 4 cfg0.N : S8x2048x1.Idx → EReal) = Cert.Spec.rowTot (m ((c.tc : Thread nD τ).loc main_arg0)) (m ((c.tc : Thread nD τ).loc main_arg1)) :=
  (dats m 0 c).arrAt_eq_of_cover 4 (rowG m c) (flushed_eq m c) covered

end Cert.KernelIdeal.Hand

end
-- ==== Proof.KI.Tail.lean ====
/-
  The host lines after the region over the extended reals: the sum of the row totals over all rows, from the zero
  initial value, divided by the element count, is the mean of the pairwise loss over all pairs.
-/
import proofs.«143206_j6339371729129_1_alg».proof.Proof.KI.Launch
import proofs.«143206_j6339371729129_1_alg».proof.Proof.Spec
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

theorem tailOf_rowTot (x : Cert.Spec.SX.Idx → EReal) (s : Cert.Spec.SLab.Idx → BitVec 32) :
    tailOf (F := Ideal) (Cert.Spec.rowTot x s) = Cert.Spec.mean x s := by
  funext j
  -- the quotient at the one index: the host sum of the row totals from the zero word, over the count word
  show Ideal.div (Ideal.hostReduceAdd Gen.reducesTo_S8x2048x1_S_d0_1_2 (Cert.Spec.rowTot x s)
      (Ideal.ofBits .f32 0x00000000#32) j) (Ideal.ofBits .f32 0x4C000000#32)
    = Ideal.div (∑ i : Cert.Spec.SPair.Idx, Cert.Spec.pair x s (i 0) (i 1) (i 2)) Cert.Spec.count
  -- the result has no axis, so the host sum is the initial value plus the sum over every row; the zero word is 0
  rw [Ideal.hostReduceAdd_total _ (fun b => b.elim0), Ideal.ofBits_zero_f32, zero_add, Cert.Spec.sum_rowTot]

end Cert.KernelIdeal.Hand

end
-- ==== Proof.Ref.lean ====
/-
  The reference's result as one function of the argument arrays: its last stage, read back operation by operation at an
  index, is the mean over all (n, l, m) of the pairwise loss of Spec — the squared norms its host sums of squares from
  the zero initial value, the inner product one entry of its batched dot_general, the label indicator its comparison
  converted to a float, the two selects its calls of the outlined where.
-/
import proofs.«143206_j6339371729129_1_alg».proof.Proof.Gen.ReferenceIdeal.Run
import proofs.«143206_j6339371729129_1_alg».proof.Proof.Gen.ReferenceIdeal.Read
import proofs.«143206_j6339371729129_1_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-- The comparison of two labels converted to a float is the indicator of their agreement. -/
theorem lab_eq (a b : BitVec 32) :
    FloatOps.uitofp (F := Ideal) .f32 (IntOp.cmpi .eq a b) = Cert.Spec.lab a b := by
  unfold Cert.Spec.lab
  by_cases h : a = b
  · subst h
    rw [if_pos rfl]
    show (((IntOp.cmpi .eq a a).toNat : ℝ) : EReal) = 1
    have e : IntOp.cmpi .eq a a = 1#1 := by simp [IntOp.cmpi]
    rw [e]
    simp
  · rw [if_neg h]
    show (((IntOp.cmpi .eq a b).toNat : ℝ) : EReal) = 0
    have hb : (a == b) = false := by simpa using h
    have e : IntOp.cmpi .eq a b = 0#1 := by simp [IntOp.cmpi, hb]
    rw [e]
    simp

/-- The row sum's operand index behind the row broadcasts is (n, l, k). -/
theorem idx_rowsq_l (i : S8x2048x2048.Idx) (k : Fin 512) : idx_main_v7 (idx_main_v9 (idx_main_v11 i)) k = ix3 (n0 := 8) (n1 := 2048) (n2 := 512) (i 0) (i 1) k :=
  funext fun a => Fin.ext (by match a with | ⟨0, _⟩ => rfl | ⟨1, _⟩ => rfl | ⟨2, _⟩ => rfl)
/-- The row sum's operand index behind the column broadcasts is (n, m, k). -/
theorem idx_rowsq_m (i : S8x2048x2048.Idx) (k : Fin 512) : idx_main_v7 (idx_main_v10 (idx_main_v12 i)) k = ix3 (n0 := 8) (n1 := 2048) (n2 := 512) (i 0) (i 2) k :=
  funext fun a => Fin.ext (by match a with | ⟨0, _⟩ => rfl | ⟨1, _⟩ => rfl | ⟨2, _⟩ => rfl)
/-- The contraction's left operand index is (n, l, k). -/
theorem idx_inner_l (i : S8x2048x2048.Idx) (k : Fin 512) : lidx_main_v8 i k = ix3 (n0 := 8) (n1 := 2048) (n2 := 512) (i 0) (i 1) k :=
  funext fun a => Fin.ext (by match a with | ⟨0, _⟩ => rfl | ⟨1, _⟩ => rfl | ⟨2, _⟩ => rfl)
/-- The contraction's right operand index is (n, m, k). -/
theorem idx_inner_r (i : S8x2048x2048.Idx) (k : Fin 512) : ridx_main_v8 i k = ix3 (n0 := 8) (n1 := 2048) (n2 := 512) (i 0) (i 2) k :=
  funext fun a => Fin.ext (by match a with | ⟨0, _⟩ => rfl | ⟨1, _⟩ => rfl | ⟨2, _⟩ => rfl)
/-- The row label's index behind its two broadcasts is (n, l). -/
theorem idx_lab_l (i : S8x2048x2048.Idx) : idx_main_v0 (idx_main_v2 i) = ix2 (n0 := 8) (n1 := 2048) (i 0) (i 1) :=
  funext fun a => Fin.ext (by match a with | ⟨0, _⟩ => rfl | ⟨1, _⟩ => rfl)
/-- The column label's index behind its two broadcasts is (n, m). -/
theorem idx_lab_m (i : S8x2048x2048.Idx) : idx_main_v1 (idx_main_v3 i) = ix2 (n0 := 8) (n1 := 2048) (i 0) (i 2) :=
  funext fun a => Fin.ext (by match a with | ⟨0, _⟩ => rfl | ⟨1, _⟩ => rfl)

/-- The clamped squared distance of the pair. -/
theorem d2_at (x0 : (⟨S8x2048x512, .f32⟩ : BufTy).Contents (Elt Ideal)) (i : S8x2048x2048.Idx) :
    val_main_v18 (F := Ideal) x0 i
      = max (Cert.Spec.rowsq x0 (i 0) (i 1) + Cert.Spec.rowsq x0 (i 0) (i 2) - Cert.Spec.two * Cert.Spec.inner x0 (i 0) (i 1) (i 2)) Cert.Spec.zero := by
  rw [val_main_v18_apply, val_main_v16_apply, val_main_v17_apply, val_main_cst_1_apply, val_main_v13_apply, val_main_v15_apply,
    val_main_v11_apply, val_main_v12_apply, val_main_v14_apply, val_main_cst_0_apply, val_main_v8_apply, val_main_v9_apply, val_main_v10_apply,
    val_main_v7_apply, val_main_v7_apply, val_main_cst_apply]
  simp only [val_main_v6_apply, Cert.Spec.two, Cert.Spec.zero, idx_rowsq_l, idx_rowsq_m, idx_inner_l, idx_inner_r, Ideal.ofBits_def, Ideal.addf_def, Ideal.subf_def, Ideal.mulf_def,
    Ideal.maximumf_def, Ideal.ofBits_zero_f32, zero_add, Cert.Spec.rowsq, Cert.Spec.inner]

/-- The float of the label comparison is the indicator that the two labels agree. -/
theorem y_at (x1 : (⟨S8x2048, .i32⟩ : BufTy).Contents (Elt Ideal)) (i : S8x2048x2048.Idx) :
    val_main_v5 (F := Ideal) x1 i
      = Cert.Spec.lab (x1 (ix2 (n0 := 8) (n1 := 2048) (i 0) (i 1))) (x1 (ix2 (n0 := 8) (n1 := 2048) (i 0) (i 2))) := by
  rw [val_main_v5_apply, val_main_v4_apply, val_main_v2_apply, val_main_v3_apply, val_main_v0_apply, val_main_v1_apply, idx_lab_l, idx_lab_m, lab_eq]

/-- The hinge term from the clamped squared distance: the distance is its root where it is positive, else zero. -/
theorem h_at (x0 : (⟨S8x2048x512, .f32⟩ : BufTy).Contents (Elt Ideal)) (i : S8x2048x2048.Idx) :
    val_main_v27 (F := Ideal) x0 i
      = max (Cert.Spec.two - Scalar.select (Ideal.cmp .ogt (val_main_v18 (F := Ideal) x0 i) Cert.Spec.zero)
          (Ideal.sqrt (Scalar.select (Ideal.cmp .ogt (val_main_v18 (F := Ideal) x0 i) Cert.Spec.zero) (val_main_v18 (F := Ideal) x0 i) Cert.Spec.one))
          Cert.Spec.zero) Cert.Spec.zero := by
  rw [val_main_v27_apply, val_main_v25_apply, val_main_v26_apply, val_main_cst_6_apply, val_main_v24_apply, val_main_cst_5_apply,
    val_main_v23_apply, val_main_call1_v1_apply, val_main_call1_v0_apply, val_main_cst_4_apply, val_main_v22_apply, val_main_v21_apply,
    val_main_call0_v1_apply, val_main_call0_v0_apply, val_main_cst_3_apply, val_main_v20_apply, val_main_v19_apply, val_main_cst_2_apply]
  simp only [Ideal.ofBits_def, Ideal.subf_def, Ideal.maximumf_def, Ideal.hostUnary_sqrt_def, Ideal.cmpf_def]

/-- The reference's loss array at a pair is the pairwise loss. -/
theorem loss_at (x0 : (⟨S8x2048x512, .f32⟩ : BufTy).Contents (Elt Ideal)) (x1 : (⟨S8x2048, .i32⟩ : BufTy).Contents (Elt Ideal))
    (i : S8x2048x2048.Idx) :
    val_main_v37 (F := Ideal) x0 x1 i = Cert.Spec.pair x0 x1 (i 0) (i 1) (i 2) := by
  rw [val_main_v37_apply, val_main_v30_apply, val_main_v36_apply, val_main_v35_apply, val_main_v34_apply, val_main_v33_apply,
    val_main_cst_9_apply, val_main_v32_apply, val_main_v31_apply, val_main_cst_8_apply, val_main_v29_apply, val_main_v28_apply,
    val_main_cst_7_apply, h_at, y_at, d2_at]
  simp only [Ideal.ofBits_def, Ideal.addf_def, Ideal.subf_def, Ideal.mulf_def]
  rfl

/-- The reference's last stage is the mean of the pairwise loss. -/
theorem ref_value (x0 : (⟨S8x2048x512, .f32⟩ : BufTy).Contents (Elt Ideal)) (x1 : (⟨S8x2048, .i32⟩ : BufTy).Contents (Elt Ideal)) :
    val_main_v39 (F := Ideal) x0 x1 = Cert.Spec.mean x0 x1 := by
  funext j
  rw [val_main_v39_apply, val_main_v38_apply, val_main_cst_10_apply, val_main_cst_11_apply]
  simp only [loss_at, Ideal.hostDivf_def, Ideal.ofBits_def, Ideal.ofBits_zero_f32, zero_add]
  rfl

end Cert.ReferenceIdeal.RefValue

end
-- ==== Proof.lean ====
/-
  The certificate of the pairwise-distance margin loss kernel against its reference.

  Both programs compute, over the extended reals, the mean over all pairs (l, m) of rows of each of the 8 batches of

      0.1 * y * d2 + 0.3 * (1 - y) * max (2 - dist) 0 ^ 2,   d2 = max (|x_l|^2 + |x_m|^2 - 2 <x_l, x_m>) 0,
      dist = sqrt d2 where d2 > 0 and 0 elsewhere,  y = 1 where the labels of l and m agree and 0 elsewhere,

  with the same literal words and the same association of the products. They differ only in how the sum over the
  2^25 pairs is grouped: the kernel sums the 256 columns of a column tile on the lanes, adds the eight column tiles of
  a row into an accumulator that it resets at the first tile and writes back after the last, and the host then sums
  the 8 x 2048 row totals; the reference sums all pairs at once. Addition on the extended reals is commutative and
  associative, so the two groupings agree with no appeal to finiteness, and both divide by the same word 2^25.

  The kernel reads the prediction array through two windows (the row tile and the column tile) and the label array
  through two more; the frames therefore go through a launch that splits each array's share between its two windows
  (KI/Launch.lean for the idealized kernel, K/Launch.lean for the word-level one). The idealization rewrote nothing,
  so the preservation conjunct is trivial.
-/
import proofs.«143206_j6339371729129_1_alg».proof.Defs
import proofs.«143206_j6339371729129_1_alg».proof.Proof.Gen.Kernel
import proofs.«143206_j6339371729129_1_alg».proof.Proof.Gen.KernelIdeal
import proofs.«143206_j6339371729129_1_alg».proof.Proof.Gen.ReferenceIdeal
import proofs.«143206_j6339371729129_1_alg».proof.Proof.Gen.Pre_finite_inputs
import proofs.«143206_j6339371729129_1_alg».proof.Proof.Gen.ReferenceIdeal.Run
import proofs.«143206_j6339371729129_1_alg».proof.Proof.Gen.ReferenceIdeal.Read
import proofs.«143206_j6339371729129_1_alg».proof.Proof.K.Run
import proofs.«143206_j6339371729129_1_alg».proof.Proof.KI.Run
import proofs.«143206_j6339371729129_1_alg».proof.Proof.KI.Value
import proofs.«143206_j6339371729129_1_alg».proof.Proof.KI.Tail
import proofs.«143206_j6339371729129_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_p : Cert.frame_Kernel := fun m ρ _ => Cert.Kernel.Hand.frame m ρ

/-- So does the idealized kernel. -/
theorem frame_pi : Cert.frame_KernelIdeal := fun m ρ _ => Cert.KernelIdeal.Hand.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the mean of the pairwise loss of the (agreeing) argument arrays: the kernel's output array holds
    the row totals (KI/Value.lean), whose host sum over the count is the mean (KI/Tail.lean); the reference's last
    stage is the mean (Ref.lean). -/
theorem algebraic : Cert.algebraic_KernelIdeal_ReferenceIdeal := by
  intro m ρ m' ρ' _ hagree
  refine ⟨fun c => Cert.Spec.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelIdeal.Hand.run m ρ)
    rw [Cert.KernelIdeal.Hand.out_value m c]
    exact Cert.KernelIdeal.Hand.tailOf_rowTot _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq, Cert.ReferenceIdeal.RefValue.ref_value, (hagree c).1, (hagree c).2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
